-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x160000 : Shape := ⟨3, ![32, 2, 160000]⟩
abbrev S1025x2048 : Shape := ⟨2, ![1025, 2048]⟩
abbrev S_ : Shape := ⟨0, ![]⟩

class Facts : Prop where
  bcast_S_S32x2x160000 : S_.BroadcastsInDim S32x2x160000 (![] : Fin 0 → Fin S32x2x160000.rank)
  reducesTo_S32x2x160000_S_d0_1_2 : S32x2x160000.ReducesTo [0, 1, 2] S_
  h_S_ : 0 < S_.numel
  bcast_S_S1025x2048 : S_.BroadcastsInDim S1025x2048 (![] : Fin 0 → Fin S1025x2048.rank)
  reducesTo_S1025x2048_S_d0_1 : S1025x2048.ReducesTo [0, 1] S_

variable [Facts]

def fn {F : FTy → Type} [FloatOps F] (main_arg0 : FVec F S32x2x160000 .f32) (main_arg1 : FVec F S1025x2048 .f32) (main_arg2 : FVec F S1025x2048 .f32) : IVec S_ 1 :=
  let main_v0 : FVec F S32x2x160000 .f32 := Host.absf main_arg0
  let main_cst : FVec F S_ .f32 := constant S_ .f32 0x7F800000#32
  let main_v1 : FVec F S32x2x160000 .f32 := broadcastInDim S32x2x160000 ![] bcast_S_S32x2x160000 main_cst
  let main_v2 : IVec S32x2x160000 1 := cmpf .olt main_v0 main_v1
  let main_c : IVec S_ 1 := constantI S_ 1 1#1
  let main_v3 : IVec S_ 1 := (fun x v => Host.reduce IntOp.andi x v reducesTo_S32x2x160000_S_d0_1_2 h_S_) main_v2 main_c
  let main_v4 : FVec F S1025x2048 .f32 := Host.absf main_arg1
  let main_cst_0 : FVec F S_ .f32 := constant S_ .f32 0x7F800000#32
  let main_v5 : FVec F S1025x2048 .f32 := broadcastInDim S1025x2048 ![] bcast_S_S1025x2048 main_cst_0
  let main_v6 : IVec S1025x2048 1 := cmpf .olt main_v4 main_v5
  let main_c_1 : IVec S_ 1 := constantI S_ 1 1#1
  let main_v7 : IVec S_ 1 := (fun x v => Host.reduce IntOp.andi x v reducesTo_S1025x2048_S_d0_1 h_S_) main_v6 main_c_1
  let main_v8 : IVec S_ 1 := andi main_v3 main_v7
  let main_v9 : FVec F S1025x2048 .f32 := Host.absf main_arg2
  let main_cst_2 : FVec F S_ .f32 := constant S_ .f32 0x7F800000#32
  let main_v10 : FVec F S1025x2048 .f32 := broadcastInDim S1025x2048 ![] bcast_S_S1025x2048 main_cst_2
  let main_v11 : IVec S1025x2048 1 := cmpf .olt main_v9 main_v10
  let main_c_3 : IVec S_ 1 := constantI S_ 1 1#1
  let main_v12 : IVec S_ 1 := (fun x v => Host.reduce IntOp.andi x v reducesTo_S1025x2048_S_d0_1 h_S_) main_v11 main_c_3
  let main_v13 : IVec S_ 1 := andi main_v8 main_v12
  main_v13
-- ==== Kernel.lean ====
abbrev S32x2x160000 : Shape := ⟨3, ![32, 2, 160000]⟩
abbrev S1025x2048 : Shape := ⟨2, ![1025, 2048]⟩
abbrev S_ : Shape := ⟨0, ![]⟩
abbrev S32x2x1 : Shape := ⟨3, ![32, 2, 1]⟩
abbrev S32x2x1024 : Shape := ⟨3, ![32, 2, 1024]⟩
abbrev S32x2x161024 : Shape := ⟨3, ![32, 2, 161024]⟩
abbrev S32x2x162048 : Shape := ⟨3, ![32, 2, 162048]⟩
abbrev S64x162048 : Shape := ⟨2, ![64, 162048]⟩
abbrev S64x167936 : Shape := ⟨2, ![64, 167936]⟩
abbrev S64x328x512 : Shape := ⟨3, ![64, 328, 512]⟩
abbrev S2048x1025 : Shape := ⟨2, ![2048, 1025]⟩
abbrev S2048x1152 : Shape := ⟨2, ![2048, 1152]⟩
abbrev S64x320x1152 : Shape := ⟨3, ![64, 320, 1152]⟩
abbrev S1x328x512 : Shape := ⟨3, ![1, 328, 512]⟩
abbrev S1x320x1152 : Shape := ⟨3, ![1, 320, 1152]⟩
abbrev S328x512 : Shape := ⟨2, ![328, 512]⟩
abbrev S320x1152 : Shape := ⟨2, ![320, 1152]⟩
abbrev S320x512 : Shape := ⟨2, ![320, 512]⟩
abbrev S512x1152 : Shape := ⟨2, ![512, 1152]⟩
abbrev S32x2x320x1152 : Shape := ⟨4, ![32, 2, 320, 1152]⟩
abbrev S32x2x313x1025 : Shape := ⟨4, ![32, 2, 313, 1025]⟩

abbrev nBuf : Space → Nat
  | .hbm => 33
  | .vmem => 8
  | .smem => 0
  | _ => 0

abbrev bufTy : (tb : Table) → Fin (tcTables nBuf tb) → BufTy
  | .hbm, ⟨0, _⟩ => ⟨S32x2x160000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S32x2x1, .f32⟩
  | .hbm, ⟨5, _⟩ => ⟨S32x2x1024, .f32⟩
  | .hbm, ⟨6, _⟩ => ⟨S32x2x1024, .f32⟩
  | .hbm, ⟨7, _⟩ => ⟨S32x2x161024, .f32⟩
  | .hbm, ⟨8, _⟩ => ⟨S32x2x1, .f32⟩
  | .hbm, ⟨9, _⟩ => ⟨S32x2x1024, .f32⟩
  | .hbm, ⟨10, _⟩ => ⟨S32x2x1024, .f32⟩
  | .hbm, ⟨11, _⟩ => ⟨S32x2x162048, .f32⟩
  | .hbm, ⟨12, _⟩ => ⟨S64x162048, .f32⟩
  | .hbm, ⟨13, _⟩ => ⟨S_, .i32⟩
  | .hbm, ⟨14, _⟩ => ⟨S_, .f32⟩
  | .hbm, ⟨15, _⟩ => ⟨S64x167936, .f32⟩
  | .hbm, ⟨16, _⟩ => ⟨S64x328x512, .f32⟩
  | .hbm, ⟨17, _⟩ => ⟨S2048x1025, .f32⟩
  | .hbm, ⟨18, _⟩ => ⟨S_, .i32⟩
  | .hbm, ⟨19, _⟩ => ⟨S_, .f32⟩
  | .hbm, ⟨20, _⟩ => ⟨S2048x1152, .f32⟩
  | .hbm, ⟨21, _⟩ => ⟨S2048x1152, .bf16⟩
  | .hbm, ⟨22, _⟩ => ⟨S2048x1025, .f32⟩
  | .hbm, ⟨23, _⟩ => ⟨S_, .i32⟩
  | .hbm, ⟨24, _⟩ => ⟨S_, .f32⟩
  | .hbm, ⟨25, _⟩ => ⟨S2048x1152, .f32⟩
  | .hbm, ⟨26, _⟩ => ⟨S2048x1152, .bf16⟩
  | .hbm, ⟨27, _⟩ => ⟨S64x320x1152, .f32⟩
  | .hbm, ⟨28, _⟩ => ⟨S64x320x1152, .f32⟩
  | .hbm, ⟨29, _⟩ => ⟨S32x2x320x1152, .f32⟩
  | .hbm, ⟨30, _⟩ => ⟨S32x2x313x1025, .f32⟩
  | .hbm, ⟨31, _⟩ => ⟨S32x2x320x1152, .f32⟩
  | .hbm, ⟨32, _⟩ => ⟨S32x2x313x1025, .f32⟩
  | .local _ .vmem, ⟨0, _⟩ => ⟨S1x328x512, .f32⟩
  | .local _ .vmem, ⟨1, _⟩ => ⟨S1x328x512, .f32⟩
  | .local _ .vmem, ⟨2, _⟩ => ⟨S2048x1152, .bf16⟩
  | .local _ .vmem, ⟨3, _⟩ => ⟨S2048x1152, .bf16⟩
  | .local _ .vmem, ⟨4, _⟩ => ⟨S1x320x1152, .f32⟩
  | .local _ .vmem, ⟨5, _⟩ => ⟨S1x320x1152, .f32⟩
  | .local _ .vmem, ⟨6, _⟩ => ⟨S1x320x1152, .f32⟩
  | .local _ .vmem, ⟨7, _⟩ => ⟨S1x320x1152, .f32⟩
  | _, _ => ⟨S32x2x160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_call2_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_call3_v0 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x328x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x320x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x320x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S32x2x160000_S32x2x1_0_0_0 : S32x2x160000.Slices ![0, 0, 0] S32x2x1
  slices_S32x2x160000_S32x2x1024_0_0_1 : S32x2x160000.Slices ![0, 0, 1] S32x2x1024
  concatenates_S32x2x1024_S32x2x160000_S32x2x161024_d2 : Shape.Concatenates [S32x2x1024, S32x2x160000] S32x2x161024 2
  slices_S32x2x161024_S32x2x1_0_0_161023 : S32x2x161024.Slices ![0, 0, 161023] S32x2x1
  slices_S32x2x161024_S32x2x1024_0_0_159999 : S32x2x161024.Slices ![0, 0, 159999] S32x2x1024
  concatenates_S32x2x161024_S32x2x1024_S32x2x162048_d2 : Shape.Concatenates [S32x2x161024, S32x2x1024] S32x2x162048 2
  shapeCasts_S32x2x162048_S64x162048 : S32x2x162048.ShapeCasts S64x162048
  pads_S64x162048_S64x167936_000_058880 : S64x162048.Pads (![0, 0] : Fin 2 → Nat) ![0, 5888] ![0, 0] S64x167936
  h_S_ : 0 < S_.numel
  shapeCasts_S64x167936_S64x328x512 : S64x167936.ShapeCasts S64x328x512
  transposes_S1025x2048_S2048x1025_1_0 : S1025x2048.Transposes [1, 0] S2048x1025
  pads_S2048x1025_S2048x1152_000_01270 : S2048x1025.Pads (![0, 0] : Fin 2 → Nat) ![0, 127] ![0, 0] S2048x1152
  bitsLt_bf16_f32 : FTy.bits .bf16 < FTy.bits .f32
  inb_S1x328x512_S1x328x512_0_0_0 : ∀ a, (![0, 0, 0] : Fin 3 → Nat) a + S1x328x512.size a ≤ S1x328x512.size a
  h_S1x328x512 : 0 < S1x328x512.numel
  shapeCasts_S1x328x512_S328x512 : S1x328x512.ShapeCasts S328x512
  rotates_S328x512_d0 : S328x512.Rotates 0 none
  slices_S328x512_o0_0_S320x512 : S328x512.Slices ![0, 0] S320x512
  inb_S2048x1152_S512x1152_0_0 : ∀ a, (![0, 0] : Fin 2 → Nat) a + S512x1152.size a ≤ S2048x1152.size a
  h_S512x1152 : 0 < S512x1152.numel
  shapeCasts_S512x1152_S512x1152 : S512x1152.ShapeCasts S512x1152
  inb_S2048x1152_S512x1152_512_0 : ∀ a, (![512, 0] : Fin 2 → Nat) a + S512x1152.size a ≤ S2048x1152.size a
  inb_S2048x1152_S512x1152_1024_0 : ∀ a, (![1024, 0] : Fin 2 → Nat) a + S512x1152.size a ≤ S2048x1152.size a
  inb_S2048x1152_S512x1152_1536_0 : ∀ a, (![1536, 0] : Fin 2 → Nat) a + S512x1152.size a ≤ S2048x1152.size a
  inb_S1x320x1152_S1x320x1152_0_0_0 : ∀ a, (![0, 0, 0] : Fin 3 → Nat) a + S1x320x1152.size a ≤ S1x320x1152.size a
  h_S1x320x1152 : 0 < S1x320x1152.numel
  shapeCasts_S1x320x1152_S320x1152 : S1x320x1152.ShapeCasts S320x1152
  shapeCasts_S320x1152_S1x320x1152 : S320x1152.ShapeCasts S1x320x1152
  shapeCasts_S64x320x1152_S32x2x320x1152 : S64x320x1152.ShapeCasts S32x2x320x1152
  slices_S32x2x320x1152_S32x2x313x1025_0_0_0_0 : S32x2x320x1152.Slices ![0, 0, 0, 0] S32x2x313x1025
  dot_S320x512_S512x1152_S320x1152_1_0_0_1_n_n_wf : DotDims.WF S320x512 S512x1152 S320x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x328x512.size a ≤ S64x328x512.size a
  hwx0_0 : ∀ i : grid0.Coords, EltTy.bits .f32 = 32 ∨ (Rect.block (s := S64x328x512) S1x328x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1152.size a ≤ S2048x1152.size a
  hwx0_1 : ∀ i : grid0.Coords, EltTy.bits .bf16 = 32 ∨ (Rect.block (s := S2048x1152) S2048x1152.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1152.size a ≤ S2048x1152.size a
  hwx0_2 : ∀ i : grid0.Coords, EltTy.bits .bf16 = 32 ∨ (Rect.block (s := S2048x1152) S2048x1152.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x320x1152.size a ≤ S64x320x1152.size a
  hwx0_3 : ∀ i : grid0.Coords, EltTy.bits .f32 = 32 ∨ (Rect.block (s := S64x320x1152) S1x320x1152.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x320x1152.size a ≤ S64x320x1152.size a
  hwx0_4 : ∀ i : grid0.Coords, EltTy.bits .f32 = 32 ∨ (Rect.block (s := S64x320x1152) S1x320x1152.size (cc0_transform_4 i) (hinb0_4 i)).WholeWords (EltTy.packing .f32)

variable [Facts₀]

def dot_S320x512_S512x1152_S320x1152_1_0_0_1_n_n : DotDims S320x512 S512x1152 S320x1152 where
  lhsContracting := [1]
  rhsContracting := [0]
  lhsNonContracting := [0]
  rhsNonContracting := [1]
  lhsBatch := []
  rhsBatch := []
  wf := dot_S320x512_S512x1152_S320x1152_1_0_0_1_n_n_wf

abbrev win0_0 : Pipeline.Window sig grid0 :=
  Pipeline.Window.ofSpec (Memref.whole main_v3) S1x328x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x320x1152.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x320x1152.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2x160000 : Shape := ⟨3, ![32, 2, 160000]⟩
abbrev S1025x2048 : Shape := ⟨2, ![1025, 2048]⟩
abbrev S_ : Shape := ⟨0, ![]⟩
abbrev S32x2x1 : Shape := ⟨3, ![32, 2, 1]⟩
abbrev S32x2x1024 : Shape := ⟨3, ![32, 2, 1024]⟩
abbrev S32x2x161024 : Shape := ⟨3, ![32, 2, 161024]⟩
abbrev S32x2x162048 : Shape := ⟨3, ![32, 2, 162048]⟩
abbrev S313 : Shape := ⟨1, ![313]⟩
abbrev S313x1 : Shape := ⟨2, ![313, 1]⟩
abbrev S2048 : Shape := ⟨1, ![2048]⟩
abbrev S1x2048 : Shape := ⟨2, ![1, 2048]⟩
abbrev S313x2048 : Shape := ⟨2, ![313, 2048]⟩
abbrev S313x2048x1 : Shape := ⟨3, ![313, 2048, 1]⟩
abbrev S32x2x313x2048 : Shape := ⟨4, ![32, 2, 313, 2048]⟩
abbrev S32x2x313x1025 : Shape := ⟨4, ![32, 2, 313, 1025]⟩

abbrev nBuf : Space → Nat
  | .hbm => 33
  | .vmem => 0
  | .smem => 0
  | _ => 0

abbrev bufTy : (tb : Table) → Fin (tcTables nBuf tb) → BufTy
  | .hbm, ⟨0, _⟩ => ⟨S32x2x160000, .f32⟩
  | .hbm, ⟨1, _⟩ => ⟨S1025x2048, .f32⟩
  | .hbm, ⟨2, _⟩ => ⟨S1025x2048, .f32⟩
  | .hbm, ⟨3, _⟩ => ⟨S_, .i32⟩
  | .hbm, ⟨4, _⟩ => ⟨S32x2x1, .f32⟩
  | .hbm, ⟨5, _⟩ => ⟨S32x2x1024, .f32⟩
  | .hbm, ⟨6, _⟩ => ⟨S32x2x1024, .f32⟩
  | .hbm, ⟨7, _⟩ => ⟨S32x2x161024, .f32⟩
  | .hbm, ⟨8, _⟩ => ⟨S32x2x1, .f32⟩
  | .hbm, ⟨9, _⟩ => ⟨S32x2x1024, .f32⟩
  | .hbm, ⟨10, _⟩ => ⟨S32x2x1024, .f32⟩
  | .hbm, ⟨11, _⟩ => ⟨S32x2x162048, .f32⟩
  | .hbm, ⟨12, _⟩ => ⟨S313, .i32⟩
  | .hbm, ⟨13, _⟩ => ⟨S313x1, .i32⟩
  | .hbm, ⟨14, _⟩ => ⟨S_, .i32⟩
  | .hbm, ⟨15, _⟩ => ⟨S313x1, .i32⟩
  | .hbm, ⟨16, _⟩ => ⟨S313x1, .i32⟩
  | .hbm, ⟨17, _⟩ => ⟨S2048, .i32⟩
  | .hbm, ⟨18, _⟩ => ⟨S1x2048, .i32⟩
  | .hbm, ⟨19, _⟩ => ⟨S313x2048, .i32⟩
  | .hbm, ⟨20, _⟩ => ⟨S313x2048, .i32⟩
  | .hbm, ⟨21, _⟩ => ⟨S313x2048, .i32⟩
  | .hbm, ⟨22, _⟩ => ⟨S_, .i32⟩
  | .hbm, ⟨23, _⟩ => ⟨S313x2048, .i32⟩
  | .hbm, ⟨24, _⟩ => ⟨S313x2048, .i1⟩
  | .hbm, ⟨25, _⟩ => ⟨S_, .i32⟩
  | .hbm, ⟨26, _⟩ => ⟨S313x2048, .i32⟩
  | .hbm, ⟨27, _⟩ => ⟨S313x2048, .i32⟩
  | .hbm, ⟨28, _⟩ => ⟨S313x2048, .i32⟩
  | .hbm, ⟨29, _⟩ => ⟨S313x2048x1, .i32⟩
  | .hbm, ⟨30, _⟩ => ⟨S32x2x313x2048, .f32⟩
  | .hbm, ⟨31, _⟩ => ⟨S32x2x313x1025, .f32⟩
  | .hbm, ⟨32, _⟩ => ⟨S32x2x313x1025, .f32⟩
  | _, _ => ⟨S32x2x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  slices_S32x2x160000_S32x2x1_0_0_0 : S32x2x160000.Slices ![0, 0, 0] S32x2x1
  slices_S32x2x160000_S32x2x1024_0_0_1 : S32x2x160000.Slices ![0, 0, 1] S32x2x1024
  concatenates_S32x2x1024_S32x2x160000_S32x2x161024_d2 : Shape.Concatenates [S32x2x1024, S32x2x160000] S32x2x161024 2
  slices_S32x2x161024_S32x2x1_0_0_161023 : S32x2x161024.Slices ![0, 0, 161023] S32x2x1
  slices_S32x2x161024_S32x2x1024_0_0_159999 : S32x2x161024.Slices ![0, 0, 159999] S32x2x1024
  concatenates_S32x2x161024_S32x2x1024_S32x2x162048_d2 : Shape.Concatenates [S32x2x161024, S32x2x1024] S32x2x162048 2
  bcast_S313_S313x1_0 : S313.BroadcastsInDim S313x1 (![0] : Fin 1 → Fin S313x1.rank)
  bcast_S_S313x1 : S_.BroadcastsInDim S313x1 (![] : Fin 0 → Fin S313x1.rank)
  bcast_S2048_S1x2048_1 : S2048.BroadcastsInDim S1x2048 (![1] : Fin 1 → Fin S1x2048.rank)
  bcast_S313x1_S313x2048_0_1 : S313x1.BroadcastsInDim S313x2048 (![0, 1] : Fin 2 → Fin S313x2048.rank)
  bcast_S1x2048_S313x2048_0_1 : S1x2048.BroadcastsInDim S313x2048 (![0, 1] : Fin 2 → Fin S313x2048.rank)
  bcast_S_S313x2048 : S_.BroadcastsInDim S313x2048 (![] : Fin 0 → Fin S313x2048.rank)
  bcast_S313x2048_S313x2048x1_0_1 : S313x2048.BroadcastsInDim S313x2048x1 (![0, 1] : Fin 2 → Fin S313x2048x1.rank)
  gather_S32x2x162048_S313x2048x1_S32x2x313x2048_01_2_n_n_2_2_3221_wf : GatherDims.WF S32x2x162048 S313x2048x1 S32x2x313x2048 [0, 1] [2] [] [2] [] 2 ![32, 2, 1]
  dot_S32x2x313x2048_S1025x2048_S32x2x313x1025_3_1_012_0_n_n_wf : DotDims.WF S32x2x313x2048 S1025x2048 S32x2x313x1025 [3] [1] [0, 1, 2] [0] [] []

variable [Facts₀]

def gather_S32x2x162048_S313x2048x1_S32x2x313x2048_01_2_n_n_2_2_3221 : GatherDims S32x2x162048 S313x2048x1 S32x2x313x2048 where
  offsetDims := [0, 1]
  collapsedSliceDims := [2]
  operandBatchingDims := []
  startIndicesBatchingDims := []
  startIndexMap := [2]
  indexVectorDim := 2
  sliceSizes := ![32, 2, 1]
  wf := gather_S32x2x162048_S313x2048x1_S32x2x313x2048_01_2_n_n_2_2_3221_wf
def dot_S32x2x313x2048_S1025x2048_S32x2x313x1025_3_1_012_0_n_n : DotDims S32x2x313x2048 S1025x2048 S32x2x313x1025 where
  lhsContracting := [3]
  rhsContracting := [1]
  lhsNonContracting := [0, 1, 2]
  rhsNonContracting := [0]
  lhsBatch := []
  rhsBatch := []
  wf := dot_S32x2x313x2048_S1025x2048_S32x2x313x1025_3_1_012_0_n_n_wf

class Facts : Prop extends Facts₀ where

variable [Facts]
-- ==== Proof.Spec.lean ====
/-
  The short-time Fourier transform both programs compute, as ONE function of the reflect-padded signal and a
  weight matrix, index by index, over the extended reals:

      stft P W (b, c, t, k) = ∑ n < 2048, P (b, c, 512·t + n) · W (k, n)

  frame `t` is the 2048 consecutive samples of the padded signal starting at sample 512·t, and coefficient `k` of
  the frame is its inner product with row `k` of the weights.

  The frame length is four hops: sample `n = 512·i + j` of frame `t` is sample `j` of hop-chunk `t + i`, so the
  same sum can be taken chunk by chunk, `∑ i < 4, ∑ j < 512` (`sum_split`: a finite sum over `Fin 2048` re-indexed
  through `Fin 4 × Fin 512`; only commutativity and associativity of addition are used, which the extended reals have
  at the infinities too).

  The reflect padding is the same four layout operations in both programs (take samples 1…1024, reverse them, put
  them in front; take the last 1024 samples before the final one of the result so far, reverse them, put them
  behind); it is named here once (`reflectPad`) and never opened: the two sides are compared as functions of the
  padded signal.
-/
import Idealize.ShloMosaic.Lib.ValueIdx
import Idealize.ShloMosaic.PureOps.Ideal.Laws

noncomputable section

namespace Cert.Stft

open Idealize.ShloMosaic Idealize.ShloMosaic.ValueIdx
open scoped BigOperators

/-! ## The padded signal -/

/-- The signal with 1024 samples mirrored about its first sample put in front (the reverse of samples 1 … 1024). -/
def reflectLeft {α : Type}
    (h1 : (⟨3, ![32, 2, 160000]⟩ : Shape).Slices ![0, 0, 1] ⟨3, ![32, 2, 1024]⟩)
    (h2 : Shape.Concatenates [(⟨3, ![32, 2, 1024]⟩ : Shape), ⟨3, ![32, 2, 160000]⟩] ⟨3, ![32, 2, 161024]⟩ 2)
    (x : (⟨3, ![32, 2, 160000]⟩ : Shape).Idx → α) : (⟨3, ![32, 2, 161024]⟩ : Shape).Idx → α :=
  concatenate ⟨3, ![32, 2, 161024]⟩ 2
    [⟨⟨3, ![32, 2, 1024]⟩, Host.reverse [2] (extractStridedSlice ⟨3, ![32, 2, 1024]⟩ ![0, 0, 1] x h1)⟩,
     ⟨⟨3, ![32, 2, 160000]⟩, x⟩] h2

/-- The reflect-padded signal: `reflectLeft` with the mirror image of its last 1024 samples before the final one
    put behind. -/
def reflectPad {α : Type}
    (h1 : (⟨3, ![32, 2, 160000]⟩ : Shape).Slices ![0, 0, 1] ⟨3, ![32, 2, 1024]⟩)
    (h2 : Shape.Concatenates [(⟨3, ![32, 2, 1024]⟩ : Shape), ⟨3, ![32, 2, 160000]⟩] ⟨3, ![32, 2, 161024]⟩ 2)
    (h3 : (⟨3, ![32, 2, 161024]⟩ : Shape).Slices ![0, 0, 159999] ⟨3, ![32, 2, 1024]⟩)
    (h4 : Shape.Concatenates [(⟨3, ![32, 2, 161024]⟩ : Shape), ⟨3, ![32, 2, 1024]⟩] ⟨3, ![32, 2, 162048]⟩ 2)
    (x : (⟨3, ![32, 2, 160000]⟩ : Shape).Idx → α) : (⟨3, ![32, 2, 162048]⟩ : Shape).Idx → α :=
  concatenate ⟨3, ![32, 2, 162048]⟩ 2
    [⟨⟨3, ![32, 2, 161024]⟩, reflectLeft h1 h2 x⟩,
     ⟨⟨3, ![32, 2, 1024]⟩, Host.reverse [2] (extractStridedSlice ⟨3, ![32, 2, 1024]⟩ ![0, 0, 159999] (reflectLeft h1 h2 x) h3)⟩] h4

/-! ## The transform -/

/-- Sample `n` of frame `t`: sample `512·t + n` of the padded signal (the last frame ends at sample 161791). -/
def frameIx (t : Fin 313) (n : Fin 2048) : Fin 162048 := ⟨512 * t.val + n.val, by omega⟩

/-- Coefficient `k` of frame `t` of channel `(b, c)`. -/
def coeff (P : (⟨3, ![32, 2, 162048]⟩ : Shape).Idx → EReal) (W : (⟨2, ![1025, 2048]⟩ : Shape).Idx → EReal)
    (b : Fin 32) (c : Fin 2) (t : Fin 313) (k : Fin 1025) : EReal :=
  ∑ n : Fin 2048, P (ix3 b c (frameIx t n)) * W (ix2 k n)

/-- The transform as an array. -/
def stft (P : (⟨3, ![32, 2, 162048]⟩ : Shape).Idx → EReal) (W : (⟨2, ![1025, 2048]⟩ : Shape).Idx → EReal) :
    (⟨4, ![32, 2, 313, 1025]⟩ : Shape).Idx → EReal :=
  fun i => coeff P W (i 0) (i 1) (i 2) (i 3)

theorem stft_apply (P : (⟨3, ![32, 2, 162048]⟩ : Shape).Idx → EReal) (W : (⟨2, ![1025, 2048]⟩ : Shape).Idx → EReal)
    (b : Fin 32) (c : Fin 2) (t : Fin 313) (k : Fin 1025) : stft P W (ix4 b c t k) = coeff P W b c t k := rfl

/-! ## Chunk by chunk -/

/-- Row `r + i` of a block of 328 hop-chunks: the chunk that holds hop `i` of frame `r`. -/
def rowAt (r : Fin 320) (i : Fin 4) : Fin 328 := ⟨r.val + i.val, by omega⟩

/-- Sample `512·i + j` of a frame: sample `j` of its hop `i`. -/
def colAt (i : Fin 4) (j : Fin 512) : Fin 2048 := ⟨512 * i.val + j.val, by omega⟩

/-- What the kernel accumulates for frame `r` of a block of chunks `X` against one column `B` of the transposed
    weights: hop by hop, the inner product of chunk `r + i` with rows `512·i …` of the column. -/
def blockSum (X : Fin 328 → Fin 512 → EReal) (B : Fin 2048 → EReal) (r : Fin 320) : EReal :=
  ∑ i : Fin 4, ∑ j : Fin 512, X (rowAt r i) j * B (colAt i j)

/-- A sum over the 2048 samples of a frame, taken hop by hop. -/
theorem sum_split (f : Fin 2048 → EReal) : ∑ n : Fin 2048, f n = ∑ i : Fin 4, ∑ j : Fin 512, f (colAt i j) := by
  rw [← Equiv.sum_comp (finProdFinEquiv (m := 4) (n := 512)) f, Fintype.sum_prod_type]
  refine Finset.sum_congr rfl fun i _ => Finset.sum_congr rfl fun j _ => congrArg f (Fin.ext ?_)
  show j.val + 512 * i.val = 512 * i.val + j.val
  omega

end Cert.Stft

end
-- ==== Proof.HostPrefix.lean ====
/-
  The arrays the region finds, at an index: the chunk array is the reflect-padded signal cut into hops of 512 (row
  `2·b + c` is channel `(b, c)`; chunk `r`, sample `j` is padded sample `512·r + j` while that is inside the padded
  signal, zero after it), and each weight array is the transposed weight matrix with zero columns added (entry
  `(n, k)` is weight `(k, n)` for `k < 1025`).
-/
import proofs.«115000_j21380347199929_1_alg».proof.Proof.Gen.KernelIdeal.Frame
import proofs.«115000_j21380347199929_1_alg».proof.Proof.Spec
import Idealize.ShloMosaic.Lib.ValueIdx
import Idealize.ShloMosaic.Lib.KernelVsHost
import Idealize.ShloMosaic.Lib.Pipeline.Value
import Idealize.ShloMosaic.Lib.StableHlo.Run

noncomputable section

namespace Cert.KernelIdeal.HostPrefix

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The reflect-padded signal of the first argument, as this program's operations compute it. -/
abbrev padded (c : Dev nD) : S32x2x162048.Idx → EReal :=
  Cert.Stft.reflectPad slices_S32x2x160000_S32x2x1024_0_0_1 concatenates_S32x2x1024_S32x2x160000_S32x2x161024_d2
    slices_S32x2x161024_S32x2x1024_0_0_159999 concatenates_S32x2x161024_S32x2x1024_S32x2x162048_d2
    (m ((c : Thread nD τ).loc main_arg0))

/-- The chunk array as the term of the operations that wrote it: the padded signal with its two channel axes merged,
    zeros added behind each row, and each row cut into 328 hops of 512. -/
private theorem chunks_eq (c : Dev nD) :
    (V (F := Ideal) m c main_v3 : S64x328x512.Idx → EReal) =
      shapeCast S64x328x512
        (pad S64x167936 ![0, 0] ![0, 5888] ![0, 0]
          (shapeCast S64x162048 (padded m c) shapeCasts_S32x2x162048_S64x162048)
          (sitofp (F := Ideal) .f32 (constantI S_ 32 0#32)) pads_S64x162048_S64x167936_000_058880 h_S_)
        shapeCasts_S64x167936_S64x328x512 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

theorem chunks_apply (c : Dev nD) (b : Fin 32) (cc : Fin 2) (r : Fin 328) (j : Fin 512) (h : 512 * r.val + j.val < 162048) :
    V (F := Ideal) m c main_v3 (ix3 (⟨2 * b.val + cc.val, by omega⟩ : Fin 64) r j)
      = padded m c (ix3 b cc (⟨512 * r.val + j.val, h⟩ : Fin 162048)) := by
  refine (congrFun (chunks_eq m c) _).trans ?_
  -- hop `r`, sample `j` of a row is entry `512·r + j` of the row
  refine (shapeCast_apply _ _ _
    (ix2 (⟨2 * b.val + cc.val, by omega⟩ : Fin 64) (⟨512 * r.val + j.val, by omega⟩ : Fin 167936)) ?_).trans ?_
  · rw [Shape.rowMajor_val_two, Shape.rowMajor_val_three]
    show (2 * b.val + cc.val) * 167936 + (512 * r.val + j.val) = ((2 * b.val + cc.val) * 328 + r.val) * 512 + j.val
    omega
  -- that entry is before the zeros
  refine (pad_apply_of_inside _ _ _ _ _ _ _ _
    (ix2 (⟨2 * b.val + cc.val, by omega⟩ : Fin 64) (⟨512 * r.val + j.val, h⟩ : Fin 162048)) ?_).trans ?_
  · intro a
    match a with
    | ⟨0, _⟩ => show 2 * b.val + cc.val = 0 + (2 * b.val + cc.val) * (0 + 1); omega
    | ⟨1, _⟩ => show 512 * r.val + j.val = 0 + (512 * r.val + j.val) * (0 + 1); omega
  -- row `2·b + cc` is channel `(b, cc)`
  refine shapeCast_apply _ _ _ (ix3 b cc (⟨512 * r.val + j.val, h⟩ : Fin 162048)) ?_
  rw [Shape.rowMajor_val_three, Shape.rowMajor_val_two]
  show (b.val * 2 + cc.val) * 162048 + (512 * r.val + j.val) = (2 * b.val + cc.val) * 162048 + (512 * r.val + j.val)
  omega

/-- The first weight array as the term of the operations that wrote it: the weights transposed, zero columns added,
    the format changed. -/
private theorem wr_eq (c : Dev nD) :
    (V (F := Ideal) m c main_v6 : S2048x1152.Idx → EReal) =
      truncf (F := Ideal) FTy.bf16
        (pad S2048x1152 ![0, 0] ![0, 127] ![0, 0]
          (transpose S2048x1025 [1, 0] (m ((c : Thread nD τ).loc main_arg1)) transposes_S1025x2048_S2048x1025_1_0)
          (sitofp (F := Ideal) FTy.f32 (constantI S_ 32 0#32)) pads_S2048x1025_S2048x1152_000_01270 h_S_)
        bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

theorem wr_apply (c : Dev nD) (n : Fin 2048) (k : Fin 1152) (hk : k.val < 1025) :
    V (F := Ideal) m c main_v6 (ix2 n k) = m ((c : Thread nD τ).loc main_arg1) (ix2 (⟨k.val, hk⟩ : Fin 1025) n) := by
  refine (congrFun (wr_eq m c) (ix2 n k)).trans ?_
  -- the change of format is the identity on extended reals
  rw [truncf_apply]
  -- column `k < 1025` is before the zero columns
  refine (pad_apply_of_inside _ _ _ _ _ _ _ (ix2 n k) (ix2 n (⟨k.val, hk⟩ : Fin 1025)) ?_).trans ?_
  · intro a
    match a with
    | ⟨0, _⟩ => show n.val = 0 + n.val * (0 + 1); omega
    | ⟨1, _⟩ => show k.val = 0 + k.val * (0 + 1); omega
  -- entry `(n, k)` of the transpose is entry `(k, n)` of the weights
  refine transpose_apply _ _ _ _ (ix2 (⟨k.val, hk⟩ : Fin 1025) n) ?_
  intro b
  match b with
  | ⟨0, _⟩ => rfl
  | ⟨1, _⟩ => rfl

/-- The second weight array as the term of the operations that wrote it: the weights transposed, zero columns added,
    the format changed. -/
private theorem wi_eq (c : Dev nD) :
    (V (F := Ideal) m c main_v9 : S2048x1152.Idx → EReal) =
      truncf (F := Ideal) FTy.bf16
        (pad S2048x1152 ![0, 0] ![0, 127] ![0, 0]
          (transpose S2048x1025 [1, 0] (m ((c : Thread nD τ).loc main_arg2)) transposes_S1025x2048_S2048x1025_1_0)
          (sitofp (F := Ideal) FTy.f32 (constantI S_ 32 0#32)) pads_S2048x1025_S2048x1152_000_01270 h_S_)
        bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

theorem wi_apply (c : Dev nD) (n : Fin 2048) (k : Fin 1152) (hk : k.val < 1025) :
    V (F := Ideal) m c main_v9 (ix2 n k) = m ((c : Thread nD τ).loc main_arg2) (ix2 (⟨k.val, hk⟩ : Fin 1025) n) := by
  refine (congrFun (wi_eq m c) (ix2 n k)).trans ?_
  -- the change of format is the identity on extended reals
  rw [truncf_apply]
  -- column `k < 1025` is before the zero columns
  refine (pad_apply_of_inside _ _ _ _ _ _ _ (ix2 n k) (ix2 n (⟨k.val, hk⟩ : Fin 1025)) ?_).trans ?_
  · intro a
    match a with
    | ⟨0, _⟩ => show n.val = 0 + n.val * (0 + 1); omega
    | ⟨1, _⟩ => show k.val = 0 + k.val * (0 + 1); omega
  -- entry `(n, k)` of the transpose is entry `(k, n)` of the weights
  refine transpose_apply _ _ _ _ (ix2 (⟨k.val, hk⟩ : Fin 1025) n) ?_
  intro b
  match b with
  | ⟨0, _⟩ => rfl
  | ⟨1, _⟩ => rfl

end Cert.KernelIdeal.HostPrefix

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.Payload.lean ====
/-
  What the kernel body leaves in each output block, at an index: for frame `r` of the block and column `k`, the four
  hop products accumulated from zero — `Cert.Stft.blockSum` of the chunk block's rows and of column `k` of the
  transposed, padded weights.
-/
import proofs.«115000_j21380347199929_1_alg».proof.Proof.Gen.KernelIdeal.Frame
import proofs.«115000_j21380347199929_1_alg».proof.Proof.Spec
import proofs.«115000_j21380347199929_1_alg».proof.Proof.LibRowOps
import Idealize.ShloMosaic.Lib.ValueIdx
import Idealize.ShloMosaic.Lib.KernelVsHost
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The pieces, each read at an index -/

/-- The printed dimension numbers are those of a plain `320 × 512` by `512 × 1152` product. -/
private theorem dot_eq_plain : dot_S320x512_S512x1152_S320x1152_1_0_0_1_n_n = DotDims.plain 320 512 1152 := rfl

/-- Hop segment `i` of a block of 328 chunks: the block rotated along its rows by `328 − i` (modulo 328), cut to its
    first 320 rows and narrowed, has row `r + i` of the block as its row `r`: the rotation reads row
    `(r + 328 − (328 − i)) mod 328 = r + i`, since `r + i ≤ 322 < 328`, and the change of format is the identity. -/
private theorem seg_apply (v : FVec Ideal S328x512 .f32) (sb : BitVec 32) (i : Fin 4)
    (hsb : sb.toNat % 328 = (328 - i.val) % 328) (r : Fin 320) (j : Fin 512) :
    (truncf .bf16 (extractStridedSlice S320x512 ![0, 0] (dynamicRotate 0 sb none v rotates_S328x512_d0)
        slices_S328x512_o0_0_S320x512) bitsLt_bf16_f32 : FVec Ideal S320x512 .bf16) (ix2 r j)
      = v (ix2 (Cert.Stft.rowAt r i) j) := by
  refine (truncf_apply (φ := .f32) (ψ := .bf16) _ bitsLt_bf16_f32 _).trans ?_
  refine (extractStridedSlice_apply ![0, 0] _ slices_S328x512_o0_0_S320x512 (ix2 r j)
    (ix2 (⟨r.val, by omega⟩ : Fin 328) j) ?_).trans ?_
  · intro a
    match a with
    | ⟨0, _⟩ => show r.val = 0 + r.val; omega
    | ⟨1, _⟩ => show j.val = 0 + j.val; omega
  refine dynamicRotate_apply 0 sb v rotates_S328x512_d0 _ (ix2 (Cert.Stft.rowAt r i) j) ?_
  intro b
  match b with
  | ⟨0, _⟩ =>
    show r.val + i.val = (r.val + 328 - sb.toNat % 328) % 328
    rw [hsb]; omega
  | ⟨1, _⟩ =>
    show j.val = j.val; rfl

/-- Row block `i` of a weight block — the `512 × 1152` rectangle at offset `(512·i, 0)` — read at `(n, k)` is the
    weight block at `(512·i + n, k)`. -/
private theorem ld_w_apply (x : Vec Ideal S2048x1152 .bf16) (off : Fin S2048x1152.rank → Nat)
    (inb : ∀ a, off a + S512x1152.size a ≤ S2048x1152.size a) (i : Fin 4) (h0 : off 0 = 512 * i.val) (h1 : off 1 = 0)
    (n : Fin 512) (k : Fin 1152) :
    View.ld x (Rect.unit (s := S2048x1152) off S512x1152.size inb) (ix2 n k) = x (ix2 (Cert.Stft.colAt i n) k) :=
  congrArg x (funext fun a => Fin.ext (by
    match a with
    | ⟨0, _⟩ => show off 0 + 1 * n.val = 512 * i.val + n.val; omega
    | ⟨1, _⟩ => show off 1 + 1 * k.val = k.val; omega))

/-- One hop's product into the zero accumulator at `(r, k)`: the inner product of row `r` with column `k`. -/
private theorem mm_apply (l : FVec Ideal S320x512 .bf16) (w : FVec Ideal S512x1152 .bf16) (r : Fin 320) (k : Fin 1152) :
    matmul dot_S320x512_S512x1152_S320x1152_1_0_0_1_n_n none l w (constant (F := Ideal) S320x1152 .f32 0x00000000#32) (ix2 r k)
      = ∑ n : Fin 512, l (ix2 r n) * w (ix2 n k) := by
  rw [dot_eq_plain]
  exact Cert.LibRowOps.matmul_plain_zero_apply 320 512 1152 l w r k

/-- The chunk block with its unit axis dropped, at `(p, n)`, is the block at `(0, p, n)`. -/
private theorem pay4_apply (x0 : Vec Ideal S1x328x512 .f32) (p : Fin 328) (n : Fin 512) :
    k0_pay4 (F := Ideal) x0 (ix2 p n) = x0 (ix3 (0 : Fin 1) p n) := by
  unfold k0_pay4
  refine (shapeCast_dropUnit_apply ![328, 512] x0 shapeCasts_S1x328x512_S328x512 (ix2 p n)).trans ?_
  exact congrArg x0 (funext fun a => by
    match a with
    | ⟨0, _⟩ => rfl
    | ⟨1, _⟩ => rfl
    | ⟨2, _⟩ => rfl)

/-- Hop segment 0 (no rotation): row `r` of the block. -/
private theorem pay5_apply (x0 : Vec Ideal S1x328x512 .f32) (r : Fin 320) (n : Fin 512) :
    k0_pay5 (F := Ideal) x0 (ix2 r n) = x0 (ix3 (0 : Fin 1) (Cert.Stft.rowAt r 0) n) := by
  unfold k0_pay5
  exact (seg_apply (k0_pay4 x0) 0#32 0 (by decide) r n).trans (pay4_apply x0 _ n)

/-- Hop segment 1 (rotation by 327): row `r + 1` of the block. -/
private theorem pay6_apply (x0 : Vec Ideal S1x328x512 .f32) (r : Fin 320) (n : Fin 512) :
    k0_pay6 (F := Ideal) x0 (ix2 r n) = x0 (ix3 (0 : Fin 1) (Cert.Stft.rowAt r 1) n) := by
  unfold k0_pay6
  exact (seg_apply (k0_pay4 x0) 327#32 1 (by decide) r n).trans (pay4_apply x0 _ n)

/-- Hop segment 2 (rotation by 326): row `r + 2` of the block. -/
private theorem pay9_apply (x0 : Vec Ideal S1x328x512 .f32) (r : Fin 320) (n : Fin 512) :
    k0_pay9 (F := Ideal) x0 (ix2 r n) = x0 (ix3 (0 : Fin 1) (Cert.Stft.rowAt r 2) n) := by
  unfold k0_pay9
  exact (seg_apply (k0_pay4 x0) 326#32 2 (by decide) r n).trans (pay4_apply x0 _ n)

/-- Hop segment 3 (rotation by 325): row `r + 3` of the block. -/
private theorem pay1_apply (x0 : Vec Ideal S1x328x512 .f32) (r : Fin 320) (n : Fin 512) :
    k0_pay1 (F := Ideal) (k0_pay4 x0) (ix2 r n) = x0 (ix3 (0 : Fin 1) (Cert.Stft.rowAt r 3) n) := by
  unfold k0_pay1
  exact (seg_apply (k0_pay4 x0) 325#32 3 (by decide) r n).trans (pay4_apply x0 _ n)

/-- The trailing coordinates of `(0, r, k)` are `(r, k)`. -/
private theorem addUnit_ix (r : Fin 320) (k : Fin 1152) :
    (fun a : Fin 2 => ix3 (0 : Fin 1) r k a.succ) = ix2 r k :=
  funext fun a => by
    match a with
    | ⟨0, _⟩ => rfl
    | ⟨1, _⟩ => rfl

/-! ## The stored values at `(0, r, k)`: four hop products accumulated from zero -/

/-- What the first output's store holds at `(0, r, k)`, over any four weight pieces: `0` plus, hop by hop, the inner
    product of chunk row `r + i` with column `k` of piece `i`. -/
private theorem pay2_apply (x0 : Vec Ideal S1x328x512 .f32) (w0 w1 w2 w3 : Vec Ideal S512x1152 .bf16) (r : Fin 320) (k : Fin 1152) :
    k0_pay2 (F := Ideal) (k0_pay4 x0) (k0_pay7 x0 w0 w1) (k0_pay11 x0 w2) w3 (ix3 (0 : Fin 1) r k)
      = (((∑ n : Fin 512, x0 (ix3 (0 : Fin 1) (Cert.Stft.rowAt r 0) n) * w0 (ix2 n k))
          + ∑ n : Fin 512, x0 (ix3 (0 : Fin 1) (Cert.Stft.rowAt r 1) n) * w1 (ix2 n k))
          + ∑ n : Fin 512, x0 (ix3 (0 : Fin 1) (Cert.Stft.rowAt r 2) n) * w2 (ix2 n k))
          + ∑ n : Fin 512, x0 (ix3 (0 : Fin 1) (Cert.Stft.rowAt r 3) n) * w3 (ix2 n k) := by
  unfold k0_pay2 k0_pay7 k0_pay11
  refine (shapeCast_addUnit_apply ![320, 1152] _ shapeCasts_S320x1152_S1x320x1152 (ix3 (0 : Fin 1) r k)).trans ?_
  rw [addUnit_ix]
  simp only [addf_apply, broadcast_apply, shapeCast_self, mm_apply, pay5_apply, pay6_apply, pay9_apply, pay1_apply]
  rw [show (FloatOps.ofBits FTy.f32 0#32 : Ideal .f32) = 0 from Ideal.ofBits_zero_f32, zero_add]

/-- The second output's store likewise. -/
private theorem pay3_apply (x0 : Vec Ideal S1x328x512 .f32) (w0 w1 w2 w3 : Vec Ideal S512x1152 .bf16) (r : Fin 320) (k : Fin 1152) :
    k0_pay3 (F := Ideal) (k0_pay4 x0) (k0_pay8 x0 w0 w1) (k0_pay9 x0) (k0_pay10 w2) w3 (ix3 (0 : Fin 1) r k)
      = (((∑ n : Fin 512, x0 (ix3 (0 : Fin 1) (Cert.Stft.rowAt r 0) n) * w0 (ix2 n k))
          + ∑ n : Fin 512, x0 (ix3 (0 : Fin 1) (Cert.Stft.rowAt r 1) n) * w1 (ix2 n k))
          + ∑ n : Fin 512, x0 (ix3 (0 : Fin 1) (Cert.Stft.rowAt r 2) n) * w2 (ix2 n k))
          + ∑ n : Fin 512, x0 (ix3 (0 : Fin 1) (Cert.Stft.rowAt r 3) n) * w3 (ix2 n k) := by
  unfold k0_pay3 k0_pay8 k0_pay10
  refine (shapeCast_addUnit_apply ![320, 1152] _ shapeCasts_S320x1152_S1x320x1152 (ix3 (0 : Fin 1) r k)).trans ?_
  rw [addUnit_ix]
  simp only [addf_apply, broadcast_apply, shapeCast_self, mm_apply, pay5_apply, pay6_apply, pay9_apply, pay1_apply]
  rw [show (FloatOps.ofBits FTy.f32 0#32 : Ideal .f32) = 0 from Ideal.ofBits_zero_f32, zero_add]

private theorem zeros3 : (![0, 0, 0] : Fin 3 → Nat) = fun _ => 0 := funext fun a => by fin_cases a <;> rfl

/-- The four hop sums against the four row blocks of a weight block are `blockSum` of its column `k`: row block `i`
    at `(n, k)` is the weight block at `(512·i + n, k)`. -/
private theorem hops_eq_blockSum (x0 : Vec Ideal S1x328x512 .f32) (x : Vec Ideal S2048x1152 .bf16) (r : Fin 320) (k : Fin 1152) :
    (((∑ n : Fin 512, x0 (ix3 (0 : Fin 1) (Cert.Stft.rowAt r 0) n) * View.ld x r0_1 (ix2 n k))
          + ∑ n : Fin 512, x0 (ix3 (0 : Fin 1) (Cert.Stft.rowAt r 1) n) * View.ld x r0_2 (ix2 n k))
          + ∑ n : Fin 512, x0 (ix3 (0 : Fin 1) (Cert.Stft.rowAt r 2) n) * View.ld x r0_3 (ix2 n k))
          + ∑ n : Fin 512, x0 (ix3 (0 : Fin 1) (Cert.Stft.rowAt r 3) n) * View.ld x r0_4 (ix2 n k)
      = Cert.Stft.blockSum (fun r' j => x0 (ix3 (0 : Fin 1) r' j)) (fun n => x (ix2 n k)) r := by
  have e0 : ∀ n : Fin 512, View.ld x r0_1 (ix2 n k) = x (ix2 (Cert.Stft.colAt 0 n) k) :=
    fun n => ld_w_apply x _ inb_S2048x1152_S512x1152_0_0 0 rfl rfl n k
  have e1 : ∀ n : Fin 512, View.ld x r0_2 (ix2 n k) = x (ix2 (Cert.Stft.colAt 1 n) k) :=
    fun n => ld_w_apply x _ inb_S2048x1152_S512x1152_512_0 1 rfl rfl n k
  have e2 : ∀ n : Fin 512, View.ld x r0_3 (ix2 n k) = x (ix2 (Cert.Stft.colAt 2 n) k) :=
    fun n => ld_w_apply x _ inb_S2048x1152_S512x1152_1024_0 2 rfl rfl n k
  have e3 : ∀ n : Fin 512, View.ld x r0_4 (ix2 n k) = x (ix2 (Cert.Stft.colAt 3 n) k) :=
    fun n => ld_w_apply x _ inb_S2048x1152_S512x1152_1536_0 3 rfl rfl n k
  unfold Cert.Stft.blockSum
  rw [Fin.sum_univ_four]
  simp only [e0, e1, e2, e3]

/-! ## The output blocks -/

theorem out0_3_apply (x0 : Vec Ideal S1x328x512 .f32) (x1 x2 : Vec Ideal S2048x1152 .bf16) (r : Fin 320) (k : Fin 1152) :
    out0_3 (F := Ideal) x0 x1 x2 (ix3 (0 : Fin 1) r k)
      = Cert.Stft.blockSum (fun r' j => x0 (ix3 (0 : Fin 1) r' j)) (fun n => x1 (ix2 n k)) r := by
  unfold out0_3
  rw [View.canon_unit_zero (S := S1x320x1152) zeros3 inb_S1x320x1152_S1x320x1152_0_0_0,
    View.ld_unit_zero (S := S1x328x512) zeros3 inb_S1x328x512_S1x328x512_0_0_0 x0]
  exact (pay2_apply x0 (View.ld x1 r0_1) (View.ld x1 r0_2) (View.ld x1 r0_3) (View.ld x1 r0_4) r k).trans
    (hops_eq_blockSum x0 x1 r k)

theorem out0_4_apply (x0 : Vec Ideal S1x328x512 .f32) (x1 x2 : Vec Ideal S2048x1152 .bf16) (r : Fin 320) (k : Fin 1152) :
    out0_4 (F := Ideal) x0 x1 x2 (ix3 (0 : Fin 1) r k)
      = Cert.Stft.blockSum (fun r' j => x0 (ix3 (0 : Fin 1) r' j)) (fun n => x2 (ix2 n k)) r := by
  unfold out0_4
  rw [View.canon_unit_zero (S := S1x320x1152) zeros3 inb_S1x320x1152_S1x320x1152_0_0_0,
    View.ld_unit_zero (S := S1x328x512) zeros3 inb_S1x328x512_S1x328x512_0_0_0 x0]
  exact (pay3_apply x0 (View.ld x2 r0_1) (View.ld x2 r0_2) (View.ld x2 r0_3) (View.ld x2 r0_4) r k).trans
    (hops_eq_blockSum x0 x2 r k)

end Cert.KernelIdeal.Body

end
-- ==== Proof.KArray.lean ====
/-
  The kernel's two output arrays after the run, at an index: row `bc` of each is the block grid point `bc` wrote
  back (the 64 blocks tile the array, one per point, so no later point overwrites it), and that block is what the
  body left in the staging buffer — for frame `r` and column `k` the hop-by-hop sum `Cert.Stft.blockSum` of row
  `bc` of the chunk array against column `k` of a weight array, both as the region finds them.
-/
import proofs.«115000_j21380347199929_1_alg».proof.Proof.Gen.KernelIdeal.Frame
import proofs.«115000_j21380347199929_1_alg».proof.Proof.Spec
import proofs.«115000_j21380347199929_1_alg».proof.Proof.Payload
import Idealize.ShloMosaic.Lib.ValueIdx
import Idealize.ShloMosaic.Lib.Pipeline.Value

set_option maxRecDepth 16384
noncomputable section

namespace Cert.KernelIdeal.Arr

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-- The block indices over the grid: the chunk window and both output windows move along their first axis with the
    point; the weight windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-! ## The input blocks -/

/-- The chunk block at point `t` is row `t` of the chunk array. -/
theorem x_read (c : Dev nD) (t : Fin cfg0.N) (bc : Fin 64) (hbc : t.val = bc.val) (r' : Fin 328) (j : Fin 512) :
    iblk m c 0 t (ix3 (0 : Fin 1) r' j) = V m c main_v3 (ix3 bc r' j) := by
  show V m c main_v3 (((cfg0.win 0).blk t).view.emb (ix3 (0 : Fin 1) r' j)) = _
  refine congrArg (V m c main_v3) (funext fun a => Fin.ext ?_)
  obtain ⟨e0, e1, e2, -⟩ := idx_facts t
  match a with
  | ⟨0, _⟩ => show win0_0.index t (0 : Fin 3) * 1 + 1 * 0 = bc.val; omega
  | ⟨1, _⟩ => show win0_0.index t (1 : Fin 3) * 328 + 1 * r'.val = r'.val; omega
  | ⟨2, _⟩ => show win0_0.index t (2 : Fin 3) * 512 + 1 * j.val = j.val; omega

/-- The first weight block at every point is the whole array. -/
theorem wr_read (c : Dev nD) (t : Fin cfg0.N) (n : Fin 2048) (k : Fin 1152) :
    iblk m c 1 t (ix2 n k) = V m c main_v6 (ix2 n k) := by
  show V m c main_v6 (((cfg0.win 1).blk t).view.emb (ix2 n k)) = _
  refine congrArg (V m c main_v6) (funext fun a => Fin.ext ?_)
  obtain ⟨-, -, -, e0, e1, -⟩ := idx_facts t
  match a with
  | ⟨0, _⟩ => show win0_1.index t (0 : Fin 2) * 2048 + 1 * n.val = n.val; omega
  | ⟨1, _⟩ => show win0_1.index t (1 : Fin 2) * 1152 + 1 * k.val = k.val; omega

/-- So is the second. -/
theorem wi_read (c : Dev nD) (t : Fin cfg0.N) (n : Fin 2048) (k : Fin 1152) :
    iblk m c 2 t (ix2 n k) = V m c main_v9 (ix2 n k) := by
  show V m c main_v9 (((cfg0.win 2).blk t).view.emb (ix2 n k)) = _
  refine congrArg (V m c main_v9) (funext fun a => Fin.ext ?_)
  obtain ⟨-, -, -, -, -, e0, e1, -⟩ := idx_facts t
  match a with
  | ⟨0, _⟩ => show win0_2.index t (0 : Fin 2) * 2048 + 1 * n.val = n.val; omega
  | ⟨1, _⟩ => show win0_2.index t (1 : Fin 2) * 1152 + 1 * k.val = k.val; omega

/-! ## The output blocks do not meet -/

theorem idx_inj3 : ∀ t t' : Fin cfg0.N, win0_3.index t = win0_3.index t' → t = t' :=
  (by decide +kernel : ∀ t t' : Fin grid0.N, win0_3.index t = win0_3.index t' → t = t')

theorem idx_inj4 : ∀ t t' : Fin cfg0.N, win0_4.index t = win0_4.index t' → t = t' :=
  (by decide +kernel : ∀ t t' : Fin grid0.N, win0_4.index t = win0_4.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-! ## The output arrays at an index -/

/-- The first output array at `(bc, r, k)`. -/
theorem arr3_apply (c : Dev nD) (bc : Fin 64) (r : Fin 320) (k : Fin 1152) :
    (dats m 0 c).arrAt 3 cfg0.N (ix3 bc r k)
      = Cert.Stft.blockSum (fun r' j => V m c main_v3 (ix3 bc r' j)) (fun n => V m c main_v6 (ix2 n k)) r := by
  obtain ⟨t, ht⟩ : ∃ t : Fin cfg0.N, t.val = bc.val := ⟨⟨bc.val, Nat.lt_of_lt_of_eq bc.isLt N_0.symm⟩, rfl⟩
  have hemb : ((cfg0.win 3).blk t).view.emb (ix3 (0 : Fin 1) r k) = ix3 bc r k := funext fun a => Fin.ext (by
    obtain ⟨-, -, -, -, -, -, -, e0, e1, e2, -⟩ := idx_facts t
    match a with
    | ⟨0, _⟩ => show win0_3.index t (0 : Fin 3) * 1 + 1 * 0 = bc.val; omega
    | ⟨1, _⟩ => show win0_3.index t (1 : Fin 3) * 320 + 1 * r.val = r.val; omega
    | ⟨2, _⟩ => show win0_3.index t (2 : Fin 3) * 1152 + 1 * k.val = k.val; omega)
  have hblk := congrFun ((dats m 0 c).read_blk_arrAt_eq_flushed 3 disjoint3 cfg0.N t t.isLt (flush0_3 t)) (ix3 (0 : Fin 1) r k)
  rw [← hemb]
  refine Eq.trans hblk ?_
  show (cfg0.win 3).cut (grid0.coords t) ((dats m 0 c).after 3 t) (ix3 (0 : Fin 1) r k) = _
  rw [after0_3]
  refine (Cert.KernelIdeal.Body.out0_3_apply (iblk m c 0 t) (iblk m c 1 t) (iblk m c 2 t) r k).trans ?_
  unfold Cert.Stft.blockSum
  refine Finset.sum_congr rfl fun i _ => Finset.sum_congr rfl fun j _ => ?_
  dsimp only
  rw [x_read m c t bc ht, wr_read m c t]

/-- The second output array at `(bc, r, k)`. -/
theorem arr4_apply (c : Dev nD) (bc : Fin 64) (r : Fin 320) (k : Fin 1152) :
    (dats m 0 c).arrAt 4 cfg0.N (ix3 bc r k)
      = Cert.Stft.blockSum (fun r' j => V m c main_v3 (ix3 bc r' j)) (fun n => V m c main_v9 (ix2 n k)) r := by
  obtain ⟨t, ht⟩ : ∃ t : Fin cfg0.N, t.val = bc.val := ⟨⟨bc.val, Nat.lt_of_lt_of_eq bc.isLt N_0.symm⟩, rfl⟩
  have hemb : ((cfg0.win 4).blk t).view.emb (ix3 (0 : Fin 1) r k) = ix3 bc r k := funext fun a => Fin.ext (by
    obtain ⟨-, -, -, -, -, -, -, -, -, -, e0, e1, e2⟩ := idx_facts t
    match a with
    | ⟨0, _⟩ => show win0_4.index t (0 : Fin 3) * 1 + 1 * 0 = bc.val; omega
    | ⟨1, _⟩ => show win0_4.index t (1 : Fin 3) * 320 + 1 * r.val = r.val; omega
    | ⟨2, _⟩ => show win0_4.index t (2 : Fin 3) * 1152 + 1 * k.val = k.val; omega)
  have hblk := congrFun ((dats m 0 c).read_blk_arrAt_eq_flushed 4 disjoint4 cfg0.N t t.isLt (flush0_4 t)) (ix3 (0 : Fin 1) r k)
  rw [← hemb]
  refine Eq.trans hblk ?_
  show (cfg0.win 4).cut (grid0.coords t) ((dats m 0 c).after 4 t) (ix3 (0 : Fin 1) r k) = _
  rw [after0_4]
  refine (Cert.KernelIdeal.Body.out0_4_apply (iblk m c 0 t) (iblk m c 1 t) (iblk m c 2 t) r k).trans ?_
  unfold Cert.Stft.blockSum
  refine Finset.sum_congr rfl fun i _ => Finset.sum_congr rfl fun j _ => ?_
  dsimp only
  rw [x_read m c t bc ht, wi_read m c t]

end Cert.KernelIdeal.Arr

end
-- ==== Proof.KTail.lean ====
/-
  The two results after the region: each is the corresponding output array regrouped from `[64, 320, 1152]` to
  `[32, 2, 320, 1152]` (row `2·b + c` is channel `(b, c)`) and cut to its first 313 frames and 1025 columns, so result
  entry `(b, c, t, k)` is output entry `(2·b + c, t, k)`.
-/
import proofs.«115000_j21380347199929_1_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.Tail

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The first result as the operations after the region compute it from the first output array. -/
theorem tail12 (c : Dev nD) :
    (Pipeline.afterTail₀ cfgs (dats m) 0 (V0 m) [hostOps1] c main_v12 : S32x2x313x1025.Idx → EReal)
      = extractStridedSlice S32x2x313x1025 ![0, 0, 0, 0]
          (shapeCast S32x2x320x1152 ((dats m 0 c).arrAt 3 cfg0.N : S64x320x1152.Idx → EReal) shapeCasts_S64x320x1152_S32x2x320x1152)
          slices_S32x2x320x1152_S32x2x313x1025_0_0_0_0 := by
  have hw : Pipeline.withArrays (cfgs 0).spec c (V0 m c) (fun w => (dats m 0 c).arrAt w (cfgs 0).N) (Proc.tc.devRef main_v10_0)
      = (dats m 0 c).arrAt 3 cfg0.N := Pipeline.withArrays_arr spec0 launch0.win.arr_inj c _ _ 3
  unfold Pipeline.afterTail₀
  show StableHlo.after hostOps1 _ (Proc.devRef .tc main_v12) = _
  after_results
  rw [hw]
  rfl

/-- The second result, from the second output array. -/
theorem tail14 (c : Dev nD) :
    (Pipeline.afterTail₀ cfgs (dats m) 0 (V0 m) [hostOps1] c main_v14 : S32x2x313x1025.Idx → EReal)
      = extractStridedSlice S32x2x313x1025 ![0, 0, 0, 0]
          (shapeCast S32x2x320x1152 ((dats m 0 c).arrAt 4 cfg0.N : S64x320x1152.Idx → EReal) shapeCasts_S64x320x1152_S32x2x320x1152)
          slices_S32x2x320x1152_S32x2x313x1025_0_0_0_0 := by
  have hw : Pipeline.withArrays (cfgs 0).spec c (V0 m c) (fun w => (dats m 0 c).arrAt w (cfgs 0).N) (Proc.tc.devRef main_v10_1)
      = (dats m 0 c).arrAt 4 cfg0.N := Pipeline.withArrays_arr spec0 launch0.win.arr_inj c _ _ 4
  unfold Pipeline.afterTail₀
  show StableHlo.after hostOps1 _ (Proc.devRef .tc main_v14) = _
  after_results
  rw [hw]
  rfl

/-- A regrouped, cut array at `(b, c, t, k)` is the array at `(2·b + c, t, k)`. -/
theorem cut_apply (A : S64x320x1152.Idx → EReal) (b : Fin 32) (cc : Fin 2) (t : Fin 313) (k : Fin 1025) :
    extractStridedSlice S32x2x313x1025 ![0, 0, 0, 0]
        (shapeCast S32x2x320x1152 A shapeCasts_S64x320x1152_S32x2x320x1152)
        slices_S32x2x320x1152_S32x2x313x1025_0_0_0_0 (ix4 b cc t k)
      = A (ix3 (⟨2 * b.val + cc.val, by omega⟩ : Fin 64) (⟨t.val, by omega⟩ : Fin 320) (⟨k.val, by omega⟩ : Fin 1152)) := by
  refine (extractStridedSlice_apply _ _ _ (ix4 b cc t k) (ix4 b cc (⟨t.val, by omega⟩ : Fin 320) (⟨k.val, by omega⟩ : Fin 1152)) (fun a => ?_)).trans ?_
  · match a with
    | ⟨0, _⟩ => show b.val = 0 + b.val; omega
    | ⟨1, _⟩ => show cc.val = 0 + cc.val; omega
    | ⟨2, _⟩ => show t.val = 0 + t.val; omega
    | ⟨3, _⟩ => show k.val = 0 + k.val; omega
  · refine shapeCast_apply _ _ _ _ ?_
    refine (Shape.rowMajor_val_three (d := ![64, 320, 1152]) _).trans (Eq.trans ?_ (Shape.rowMajor_val_four (d := ![32, 2, 320, 1152]) _).symm)
    show ((2 * b.val + cc.val) * 320 + t.val) * 1152 + k.val = ((b.val * 2 + cc.val) * 320 + t.val) * 1152 + k.val
    omega

end Cert.KernelIdeal.Tail

end
-- ==== Proof.KValue.lean ====
/-
  The kernel program's run with its two results named: each is the transform `Cert.Stft.stft` of the reflect-padded
  first argument against a weight argument.

  Result entry `(b, c, t, k)` is output entry `(2·b + c, t, k)` (the operations after the region), which is the
  hop-by-hop sum of row `2·b + c` of the chunk array against column `k` of a weight array (the output arrays); chunk
  `t + i`, sample `j` of that row is padded sample `512·(t + i) + j = 512·t + (512·i + j)` of channel `(b, c)` — inside
  the padded signal, since `t ≤ 312` — and entry `(512·i + j, k)` of a weight array is weight `(k, 512·i + j)` since
  `k < 1025` (the arrays the region finds); the hop-by-hop sum is the sum over the frame's 2048 samples (`sum_split`).
-/
import proofs.«115000_j21380347199929_1_alg».proof.Proof.Gen.KernelIdeal.Frame
import proofs.«115000_j21380347199929_1_alg».proof.Proof.Spec
import proofs.«115000_j21380347199929_1_alg».proof.Proof.HostPrefix
import proofs.«115000_j21380347199929_1_alg».proof.Proof.KArray
import proofs.«115000_j21380347199929_1_alg».proof.Proof.KTail
import Idealize.ShloMosaic.Lib.ValueIdx

noncomputable section

namespace Cert.KernelIdeal.KValue

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The hop-by-hop sum over the arrays the region finds is the transform's coefficient. -/
theorem blockSum_eq_coeff (c : Dev nD) (A : S2048x1152.Idx → EReal) (W : S1025x2048.Idx → EReal)
    (hA : ∀ (n : Fin 2048) (k : Fin 1152) (hk : k.val < 1025), A (ix2 n k) = W (ix2 (⟨k.val, hk⟩ : Fin 1025) n))
    (b : Fin 32) (cc : Fin 2) (t : Fin 313) (k : Fin 1025) :
    Cert.Stft.blockSum (fun r' j => V m c main_v3 (ix3 (⟨2 * b.val + cc.val, by omega⟩ : Fin 64) r' j))
        (fun n => A (ix2 n (⟨k.val, by omega⟩ : Fin 1152))) (⟨t.val, by omega⟩ : Fin 320)
      = Cert.Stft.coeff (HostPrefix.padded m c) W b cc t k := by
  unfold Cert.Stft.blockSum Cert.Stft.coeff
  rw [Cert.Stft.sum_split]
  refine Finset.sum_congr rfl fun i _ => Finset.sum_congr rfl fun j _ => ?_
  dsimp only
  have hin : 512 * (Cert.Stft.rowAt (⟨t.val, by omega⟩ : Fin 320) i).val + j.val < 162048 := by
    show 512 * (t.val + i.val) + j.val < 162048
    omega
  rw [HostPrefix.chunks_apply m c b cc (Cert.Stft.rowAt (⟨t.val, by omega⟩ : Fin 320) i) j hin,
    hA (Cert.Stft.colAt i j) (⟨k.val, by omega⟩ : Fin 1152) k.isLt]
  refine congrArg (fun q => HostPrefix.padded m c (ix3 b cc q) * W (ix2 k (Cert.Stft.colAt i j))) (Fin.ext ?_)
  show 512 * (t.val + i.val) + j.val = 512 * t.val + (512 * i.val + j.val)
  omega

/-- The first result is the transform against the first weight argument. -/
theorem out_real (c : Dev nD) :
    (Pipeline.afterTail₀ cfgs (dats m) 0 (V0 m) [hostOps1] c main_v12 : S32x2x313x1025.Idx → EReal)
      = Cert.Stft.stft (HostPrefix.padded m c) (m ((c : Thread nD τ).loc main_arg1)) := by
  funext i
  obtain ⟨b, cc, t, k, rfl⟩ : ∃ (b : Fin 32) (cc : Fin 2) (t : Fin 313) (k : Fin 1025), i = ix4 b cc t k :=
    ⟨i 0, i 1, i 2, i 3, eq_ix4 i⟩
  rw [Tail.tail12, Tail.cut_apply, Arr.arr3_apply, Cert.Stft.stft_apply]
  exact blockSum_eq_coeff m c _ _ (fun n k hk => HostPrefix.wr_apply m c n k hk) b cc t k

/-- The second result is the transform against the second weight argument. -/
theorem out_imag (c : Dev nD) :
    (Pipeline.afterTail₀ cfgs (dats m) 0 (V0 m) [hostOps1] c main_v14 : S32x2x313x1025.Idx → EReal)
      = Cert.Stft.stft (HostPrefix.padded m c) (m ((c : Thread nD τ).loc main_arg2)) := by
  funext i
  obtain ⟨b, cc, t, k, rfl⟩ : ∃ (b : Fin 32) (cc : Fin 2) (t : Fin 313) (k : Fin 1025), i = ix4 b cc t k :=
    ⟨i 0, i 1, i 2, i 3, eq_ix4 i⟩
  rw [Tail.tail14, Tail.cut_apply, Arr.arr4_apply, Cert.Stft.stft_apply]
  exact blockSum_eq_coeff m c _ _ (fun n k hk => HostPrefix.wi_apply m c n k hk) b cc t k

/-- Every weakly fair execution of the kernel program terminates with its results at the transform of the padded
    first argument against each weight argument, the arguments unchanged. -/
theorem run : θ_run defs (onTc (τ := τ) (main (F := Ideal))) ⟨m, fun _ => 0, ρ⟩ fun r => ∀ c : Dev nD,
      r.2.mem ((c.tc : Thread nD τ).loc main_v12) = Cert.Stft.stft (HostPrefix.padded m c) (m ((c.tc : Thread nD τ).loc main_arg1))
      ∧ r.2.mem ((c.tc : Thread nD τ).loc main_v14) = Cert.Stft.stft (HostPrefix.padded m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v12 (Pipeline.mem_restRefs_of main_v12 (by decide) (by decide))).trans (out_real m c),
       ((h c).2 main_v14 (Pipeline.mem_restRefs_of main_v14 (by decide) (by decide))).trans (out_imag m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.RefIdx.lean ====
/-
  The sample index of every (frame, sample) pair as the reference computes it: for frame `t` and sample `n` the
  32-bit word `512·t + n` (an iota along each axis, the frame's scaled by the hop, the two added), moved up by
  the padded length where it reads negative (it never does), with a trailing unit axis for the gather.
-/
import proofs.«115000_j21380347199929_1_alg».proof.Proof.Gen.ReferenceIdeal

noncomputable section

namespace Cert.ReferenceIdeal.RefIdx

open Cert.ReferenceIdeal Cert.ReferenceIdeal.Gen Idealize.ShloMosaic

/-- The word `512·t + n` at `(t, n)`. -/
def frameBase : IVec S313x2048 32 :=
  addi (broadcastInDim S313x2048 ![0, 1] bcast_S313x1_S313x2048_0_1
      (muli (broadcastInDim S313x1 ![0] bcast_S313_S313x1_0 (iotaInDim S313 32 0))
        (broadcastInDim S313x1 ![] bcast_S_S313x1 (constantI S_ 32 512#32))))
    (broadcastInDim S313x2048 ![0, 1] bcast_S1x2048_S313x2048_0_1
      (broadcastInDim S1x2048 ![1] bcast_S2048_S1x2048_1 (iotaInDim S2048 32 0)))

/-- The start indices the gather reads: `frameBase`, wrapped where negative, as a `[313, 2048, 1]` array. -/
def frameIdx : IVec S313x2048x1 32 :=
  broadcastInDim S313x2048x1 ![0, 1] bcast_S313x2048_S313x2048x1_0_1
    (select (cmpi .slt frameBase (broadcastInDim S313x2048 ![] bcast_S_S313x2048 (constantI S_ 32 0#32)))
      (addi frameBase (broadcastInDim S313x2048 ![] bcast_S_S313x2048 (constantI S_ 32 162048#32)))
      frameBase)

end Cert.ReferenceIdeal.RefIdx

end
-- ==== Proof.RefRun.lean ====
/-
  The reference program's run, read back: its @main is a straight line of host operations (the reflect padding's
  eight, inlined at the call; the index array's sixteen; the gather; the two contractions), so every weakly fair
  execution terminates with each result at the operations' composed term of the arguments, the arguments unchanged.
-/
import proofs.«115000_j21380347199929_1_alg».proof.Proof.Gen.ReferenceIdeal
import proofs.«115000_j21380347199929_1_alg».proof.Proof.Spec
import proofs.«115000_j21380347199929_1_alg».proof.Proof.RefIdx
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reflect-padded signal of an argument array, as this program's operations compute it. -/
abbrev padded (x : FVec F S32x2x160000 .f32) : FVec F S32x2x162048 .f32 :=
  Cert.Stft.reflectPad slices_S32x2x160000_S32x2x1024_0_0_1 concatenates_S32x2x1024_S32x2x160000_S32x2x161024_d2
    slices_S32x2x161024_S32x2x1024_0_0_159999 concatenates_S32x2x161024_S32x2x1024_S32x2x162048_d2 x

/-- The frames of a padded signal: sample `n` of frame `t` gathered at the index array's word. -/
abbrev frames (P : FVec F S32x2x162048 .f32) : FVec F S32x2x313x2048 .f32 :=
  Host.gather gather_S32x2x162048_S313x2048x1_S32x2x313x2048_01_2_n_n_2_2_3221 P RefIdx.frameIdx

/-- @main's 30 operations, in order: the call's scalar operand, the padding's eight listed at its call over the call's
    buffers, the index array's eighteen, the gather, the two contractions. -/
abbrev ops : List (HloOp τ sig (Elt F)) :=
  [ nullary main_c (constantI S_ 32 0#32),
    TRef.unary (.of main_arg0 : TRef sig ⟨S32x2x160000, .f32⟩) main_call0.v0 (extractStridedSlice S32x2x1 ![0, 0, 0] · slices_S32x2x160000_S32x2x1_0_0_0),
    TRef.unary (.of main_arg0 : TRef sig ⟨S32x2x160000, .f32⟩) main_call0.v1 (extractStridedSlice S32x2x1024 ![0, 0, 1] · slices_S32x2x160000_S32x2x1024_0_0_1),
    TRef.unary main_call0.v1 main_call0.call0.v0 (Host.reverse [2]),
    TRef.binary main_call0.call0.v0 (.of main_arg0 : TRef sig ⟨S32x2x160000, .f32⟩) main_call0.v3 (fun a b => concatenate S32x2x161024 2 [⟨S32x2x1024, a⟩, ⟨S32x2x160000, b⟩] concatenates_S32x2x1024_S32x2x160000_S32x2x161024_d2),
    TRef.unary main_call0.v3 main_call0.v4 (extractStridedSlice S32x2x1 ![0, 0, 161023] · slices_S32x2x161024_S32x2x1_0_0_161023),
    TRef.unary main_call0.v3 main_call0.v5 (extractStridedSlice S32x2x1024 ![0, 0, 159999] · slices_S32x2x161024_S32x2x1024_0_0_159999),
    TRef.unary main_call0.v5 main_call0.call1.v0 (Host.reverse [2]),
    TRef.binary main_call0.v3 main_call0.call1.v0 main_call0.v7 (fun a b => concatenate S32x2x162048 2 [⟨S32x2x161024, a⟩, ⟨S32x2x1024, b⟩] concatenates_S32x2x161024_S32x2x1024_S32x2x162048_d2),
    nullary main_v1 (iotaInDim S313 32 0),
    unary main_v1 main_v2 (broadcastInDim S313x1 ![0] bcast_S313_S313x1_0 : (⟨S313, .i32⟩ : BufTy).Contents (Elt F) → (⟨S313x1, .i32⟩ : BufTy).Contents (Elt F)),
    nullary main_c_0 (constantI S_ 32 512#32),
    unary main_c_0 main_v3 (broadcastInDim S313x1 ![] bcast_S_S313x1 : (⟨S_, .i32⟩ : BufTy).Contents (Elt F) → (⟨S313x1, .i32⟩ : BufTy).Contents (Elt F)),
    binary main_v2 main_v3 main_v4 (muli : (⟨S313x1, .i32⟩ : BufTy).Contents (Elt F) → (⟨S313x1, .i32⟩ : BufTy).Contents (Elt F) → (⟨S313x1, .i32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v4 main_v7 (broadcastInDim S313x2048 ![0, 1] bcast_S313x1_S313x2048_0_1 : (⟨S313x1, .i32⟩ : BufTy).Contents (Elt F) → (⟨S313x2048, .i32⟩ : BufTy).Contents (Elt F)),
    unary main_v6 main_v8 (broadcastInDim S313x2048 ![0, 1] bcast_S1x2048_S313x2048_0_1 : (⟨S1x2048, .i32⟩ : BufTy).Contents (Elt F) → (⟨S313x2048, .i32⟩ : BufTy).Contents (Elt F)),
    binary main_v7 main_v8 main_v9 (addi : (⟨S313x2048, .i32⟩ : BufTy).Contents (Elt F) → (⟨S313x2048, .i32⟩ : BufTy).Contents (Elt F) → (⟨S313x2048, .i32⟩ : BufTy).Contents (Elt F)),
    nullary main_c_1 (constantI S_ 32 0#32),
    unary main_c_1 main_v10 (broadcastInDim S313x2048 ![] bcast_S_S313x2048 : (⟨S_, .i32⟩ : BufTy).Contents (Elt F) → (⟨S313x2048, .i32⟩ : BufTy).Contents (Elt F)),
    binary main_v9 main_v10 main_v11 (cmpi .slt : (⟨S313x2048, .i32⟩ : BufTy).Contents (Elt F) → (⟨S313x2048, .i32⟩ : BufTy).Contents (Elt F) → (⟨S313x2048, .i1⟩ : BufTy).Contents (Elt F)),
    nullary main_c_2 (constantI S_ 32 162048#32),
    unary main_c_2 main_v12 (broadcastInDim S313x2048 ![] bcast_S_S313x2048 : (⟨S_, .i32⟩ : BufTy).Contents (Elt F) → (⟨S313x2048, .i32⟩ : BufTy).Contents (Elt F)),
    binary main_v9 main_v12 main_v13 (addi : (⟨S313x2048, .i32⟩ : BufTy).Contents (Elt F) → (⟨S313x2048, .i32⟩ : BufTy).Contents (Elt F) → (⟨S313x2048, .i32⟩ : BufTy).Contents (Elt F)),
    ternary main_v11 main_v13 main_v9 main_v14 (select : (⟨S313x2048, .i1⟩ : BufTy).Contents (Elt F) → (⟨S313x2048, .i32⟩ : BufTy).Contents (Elt F) → (⟨S313x2048, .i32⟩ : BufTy).Contents (Elt F) → (⟨S313x2048, .i32⟩ : BufTy).Contents (Elt F)),
    unary main_v14 main_v15 (broadcastInDim S313x2048x1 ![0, 1] bcast_S313x2048_S313x2048x1_0_1 : (⟨S313x2048, .i32⟩ : BufTy).Contents (Elt F) → (⟨S313x2048x1, .i32⟩ : BufTy).Contents (Elt F)),
    binary main_v0 main_v15 main_v16 ((fun x i => Host.gather gather_S32x2x162048_S313x2048x1_S32x2x313x2048_01_2_n_n_2_2_3221 x i) : (⟨S32x2x162048, .f32⟩ : BufTy).Contents (Elt F) → (⟨S313x2048x1, .i32⟩ : BufTy).Contents (Elt F) → (⟨S32x2x313x2048, .f32⟩ : BufTy).Contents (Elt F)),
    binary main_v16 main_arg1 main_v17 ((fun l r => Host.dotGeneral dot_S32x2x313x2048_S1025x2048_S32x2x313x1025_3_1_012_0_n_n none l r) : (⟨S32x2x313x2048, .f32⟩ : BufTy).Contents (Elt F) → (⟨S1025x2048, .f32⟩ : BufTy).Contents (Elt F) → (⟨S32x2x313x1025, .f32⟩ : BufTy).Contents (Elt F)),
    binary main_v16 main_arg2 main_v18 ((fun l r => Host.dotGeneral dot_S32x2x313x2048_S1025x2048_S32x2x313x1025_3_1_012_0_n_n none l r) : (⟨S32x2x313x2048, .f32⟩ : BufTy).Contents (Elt F) → (⟨S1025x2048, .f32⟩ : BufTy).Contents (Elt F) → (⟨S32x2x313x1025, .f32⟩ : BufTy).Contents (Elt F)) ]

-- thirty binds re-associated under the two callees' unfolded bodies
set_option maxRecDepth 1024 in
/-- @main is that straight line: the two functions' definitions unfolded at their calls and the records at their
    fields, both sides are one chain of host steps once sequencing is reassociated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., nullary_bufs_sub .., unary_bufs_sub .., nullary_bufs_sub ..,
    unary_bufs_sub .., binary_bufs_sub .., nullary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..⟩

/-- Whatever the buffers hold before, after the line the first result's buffer holds the contraction of the frames of
    the padded first argument with the second argument: the fold unrolled, each operation's result read at its own
    buffer and passed over at every other (inside the two concatenations' operand lists as well), what is left is the
    stated term once `padded`, `frames` and the index array are unfolded. -/
theorem v17_eq (V : Valuation τ sig (Elt F)) :
    after ops V (main_v17 : DevRef τ sig)
      = Host.dotGeneral dot_S32x2x313x2048_S1025x2048_S32x2x313x1025_3_1_012_0_n_n none
          (frames (padded (V (main_arg0 : DevRef τ sig)))) (V (main_arg1 : DevRef τ sig)) := by
  after_results_simp
  repeat (first
    | rw [nullary_result] | rw [unary_result] | rw [binary_result]
    | (rw [nullary_result_ne]; rotate_left; decide)
    | (rw [unary_result_ne]; rotate_left; decide)
    | (rw [binary_result_ne]; rotate_left; decide))
  rfl

/-- The same for the second result's buffer, against the third argument. -/
theorem v18_eq (V : Valuation τ sig (Elt F)) :
    after ops V (main_v18 : DevRef τ sig)
      = Host.dotGeneral dot_S32x2x313x2048_S1025x2048_S32x2x313x1025_3_1_012_0_n_n none
          (frames (padded (V (main_arg0 : DevRef τ sig)))) (V (main_arg2 : DevRef τ sig)) := by
  after_results_simp
  repeat (first
    | rw [nullary_result] | rw [unary_result] | rw [binary_result]
    | (rw [nullary_result_ne]; rotate_left; decide)
    | (rw [unary_result_ne]; rotate_left; decide)
    | (rw [binary_result_ne]; rotate_left; decide))
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of
    @main terminates with each result at the contraction of the frames of the padded first argument with its weight
    argument, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = Host.dotGeneral dot_S32x2x313x2048_S1025x2048_S32x2x313x1025_3_1_012_0_n_n none
              (frames (padded (m ((c.tc : Thread nD τ).loc main_arg0)))) (m ((c.tc : Thread nD τ).loc main_arg1))
      ∧ r.2.mem ((c.tc : Thread nD τ).loc main_v18)
          = Host.dotGeneral dot_S32x2x313x2048_S1025x2048_S32x2x313x1025_3_1_012_0_n_n none
              (frames (padded (m ((c.tc : Thread nD τ).loc main_arg0)))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v17).trans (v17_eq (launchContents m c)),
      (h c main_v18).trans (v18_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.RefValue.lean ====
/-
  The reference's result at an index: the contraction of the gathered frames with a weight matrix is the transform
  `Cert.Stft.stft` of the padded signal.

  Three readings at explicit coordinates, then their assembly:
  * the contraction at (b, c, t, k) is the sum over n < 2048 of the frames at (b, c, t, n) times the weights at (k, n);
  * the gather at (b, c, t, n) is the padded signal at (b, c, s), s the start index at (t, n, 0) read signed and
    clamped into [0, 162047];
  * the start index at (t, n, 0) is the word 512·t + n, at most 161791, so it reads non-negative (the wrap-around
    branch is never taken), its signed value is the number itself and the clamp leaves it.
-/
import proofs.«115000_j21380347199929_1_alg».proof.Proof.Gen.ReferenceIdeal
import proofs.«115000_j21380347199929_1_alg».proof.Proof.Spec
import proofs.«115000_j21380347199929_1_alg».proof.Proof.RefIdx
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The contraction

The left operand's axes 0, 1, 2 are kept (the result's axes 0, 1, 2), its axis 3 is contracted with the right
operand's axis 1; the right operand's axis 0 is kept (the result's axis 3). -/

local notation "D" => dot_S32x2x313x2048_S1025x2048_S32x2x313x1025_3_1_012_0_n_n

theorem dot_lhs0 (i : S32x2x313x1025.Idx) (q : (D).contr.Idx) : ((D).lhsIdx i q 0).val = (i 0).val := by
  unfold DotDims.lhsIdx
  rw [dif_neg (show ¬(0 : Fin S32x2x313x2048.rank) ∈ (D).lhsBatch from List.not_mem_nil),
    dif_pos (show (0 : Fin S32x2x313x2048.rank) ∈ (D).lhsNonContracting by decide)]
  rfl

theorem dot_lhs1 (i : S32x2x313x1025.Idx) (q : (D).contr.Idx) : ((D).lhsIdx i q 1).val = (i 1).val := by
  unfold DotDims.lhsIdx
  rw [dif_neg (show ¬(1 : Fin S32x2x313x2048.rank) ∈ (D).lhsBatch from List.not_mem_nil),
    dif_pos (show (1 : Fin S32x2x313x2048.rank) ∈ (D).lhsNonContracting by decide)]
  rfl

theorem dot_lhs2 (i : S32x2x313x1025.Idx) (q : (D).contr.Idx) : ((D).lhsIdx i q 2).val = (i 2).val := by
  unfold DotDims.lhsIdx
  rw [dif_neg (show ¬(2 : Fin S32x2x313x2048.rank) ∈ (D).lhsBatch from List.not_mem_nil),
    dif_pos (show (2 : Fin S32x2x313x2048.rank) ∈ (D).lhsNonContracting by decide)]
  rfl

theorem dot_lhs3 (i : S32x2x313x1025.Idx) (q : (D).contr.Idx) :
    ((D).lhsIdx i q 3).val = (q ⟨0, Nat.one_pos⟩).val :=
  (D).lhsIdx_val_of_single rfl i q

theorem dot_rhs0 (i : S32x2x313x1025.Idx) (q : (D).contr.Idx) : ((D).rhsIdx i q 0).val = (i 3).val := by
  unfold DotDims.rhsIdx
  rw [dif_neg (show ¬(0 : Fin S1025x2048.rank) ∈ (D).rhsBatch from List.not_mem_nil),
    dif_pos (show (0 : Fin S1025x2048.rank) ∈ (D).rhsNonContracting by decide)]
  rfl

theorem dot_rhs1 (i : S32x2x313x1025.Idx) (q : (D).contr.Idx) :
    ((D).rhsIdx i q 1).val = (q ⟨0, Nat.one_pos⟩).val :=
  (D).rhsIdx_val_of_single rfl i q

theorem dot_apply (X : FVec Ideal S32x2x313x2048 .f32) (W : FVec Ideal S1025x2048 .f32)
    (b : Fin 32) (c : Fin 2) (t : Fin 313) (k : Fin 1025) :
    Host.dotGeneral (F := Ideal) (D) none X W (ix4 b c t k) = ∑ n : Fin 2048, X (ix4 b c t n) * W (ix2 k n) := by
  simp only [Host.dotGeneral]
  rw [Ideal.dotGeneral_apply, ← Equiv.sum_comp (contrEquiv1 (D) 2048 rfl rfl).symm]
  refine Finset.sum_congr rfl fun n _ => ?_
  have hn := contrEquiv1_symm_val (D) 2048 rfl rfl n
  have el : (D).lhsIdx (ix4 b c t k) ((contrEquiv1 (D) 2048 rfl rfl).symm n) = ix4 b c t n :=
    funext fun a => Fin.ext (by
      match a with
      | ⟨0, _⟩ => exact dot_lhs0 _ _
      | ⟨1, _⟩ => exact dot_lhs1 _ _
      | ⟨2, _⟩ => exact dot_lhs2 _ _
      | ⟨3, _⟩ => exact (dot_lhs3 _ _).trans hn)
  have er : (D).rhsIdx (ix4 b c t k) ((contrEquiv1 (D) 2048 rfl rfl).symm n) = ix2 k n :=
    funext fun a => Fin.ext (by
      match a with
      | ⟨0, _⟩ => exact dot_rhs0 _ _
      | ⟨1, _⟩ => exact (dot_rhs1 _ _).trans hn)
  rw [el, er]

/-! ## The gather

The operand's axes 0 and 1 are offset axes (whole slices: the operand index there is the result's coordinate), its
axis 2 is collapsed and named by the start index map: the operand index there is the start index at (t, n, 0), read
signed and clamped into [0, 162048 − 1]. -/

local notation "G" => gather_S32x2x162048_S313x2048x1_S32x2x313x2048_01_2_n_n_2_2_3221

theorem gather_siIdx (b : Fin 32) (c : Fin 2) (t : Fin 313) (n : Fin 2048)
    (h : List.idxOf (2 : Fin S32x2x162048.rank) (G).startIndexMap < (G).startIndexMap.length) :
    (G).siIdx (ix4 b c t n) ⟨List.idxOf (2 : Fin S32x2x162048.rank) (G).startIndexMap, h⟩ = ix3 t n 0 := by
  funext a; refine Fin.ext ?_
  match a with
  | ⟨0, _⟩ => rfl
  | ⟨1, _⟩ => rfl
  | ⟨2, _⟩ => rfl

theorem gather_ax0 {w : Nat} (idx : IVec S313x2048x1 w) (j : S32x2x313x2048.Idx) :
    ((G).operandIdx j idx 0).val = (j 0).val := by
  show (G).start j idx 0 + (G).batchCoord j 0 + (G).offCoord j 0 = _
  rw [GatherDims.batchCoord_eq_zero _ _ _ List.not_mem_nil, Nat.add_zero]
  unfold GatherDims.start GatherDims.offCoord
  rw [dif_neg (show ¬(0 : Fin S32x2x162048.rank) ∈ (G).startIndexMap by decide),
    dif_pos (show (0 : Fin S32x2x162048.rank) ∈ (G).sKept by decide), Nat.zero_add]
  rfl

theorem gather_ax1 {w : Nat} (idx : IVec S313x2048x1 w) (j : S32x2x313x2048.Idx) :
    ((G).operandIdx j idx 1).val = (j 1).val := by
  show (G).start j idx 1 + (G).batchCoord j 1 + (G).offCoord j 1 = _
  rw [GatherDims.batchCoord_eq_zero _ _ _ List.not_mem_nil, Nat.add_zero]
  unfold GatherDims.start GatherDims.offCoord
  rw [dif_neg (show ¬(1 : Fin S32x2x162048.rank) ∈ (G).startIndexMap by decide),
    dif_pos (show (1 : Fin S32x2x162048.rank) ∈ (G).sKept by decide), Nat.zero_add]
  rfl

theorem gather_ax2 {w : Nat} (idx : IVec S313x2048x1 w) (b : Fin 32) (c : Fin 2) (t : Fin 313) (n : Fin 2048) :
    ((G).operandIdx (ix4 b c t n) idx 2).val = min (idx (ix3 t n 0)).toInt.toNat 162047 := by
  show (G).start (ix4 b c t n) idx 2 + (G).batchCoord (ix4 b c t n) 2 + (G).offCoord (ix4 b c t n) 2 = _
  rw [GatherDims.batchCoord_eq_zero _ _ _ List.not_mem_nil,
    GatherDims.offCoord_eq_zero _ _ _ (fun h => ((GatherDims.mem_sKept _ _).mp h).1 (List.mem_singleton.mpr rfl)),
    Nat.add_zero]
  unfold GatherDims.start
  rw [dif_pos (show (2 : Fin S32x2x162048.rank) ∈ (G).startIndexMap from List.mem_singleton.mpr rfl), gather_siIdx]
  rfl

theorem gather_apply {α : Type} {w : Nat} (P : S32x2x162048.Idx → α) (idx : IVec S313x2048x1 w)
    (b : Fin 32) (c : Fin 2) (t : Fin 313) (n : Fin 2048) :
    Host.gather (G) P idx (ix4 b c t n)
      = P (ix3 b c ⟨min (idx (ix3 t n 0)).toInt.toNat 162047, by omega⟩) := by
  unfold Host.gather
  congr 1
  funext a
  refine Fin.ext ?_
  match a with
  | ⟨0, _⟩ => exact gather_ax0 idx _
  | ⟨1, _⟩ => exact gather_ax1 idx _
  | ⟨2, _⟩ => exact gather_ax2 idx b c t n

/-! ## The index word

At (t, n) the sum of the frame iota scaled by the hop and the sample iota is the word 512·t + n (no wrap: it is
below 2³¹); it does not read negative, so the selection keeps it. -/

theorem frameBase_apply (J : S313x2048.Idx) :
    RefIdx.frameBase J = BitVec.ofNat 32 (512 * (J 0).val + (J 1).val) := by
  show BitVec.ofNat 32 (J 0).val * 512#32 + BitVec.ofNat 32 (J 1).val = _
  have h0 : (J 0).val < 313 := (J 0).isLt
  have h1 : (J 1).val < 2048 := (J 1).isLt
  apply BitVec.eq_of_toNat_eq
  simp only [BitVec.toNat_add, BitVec.toNat_mul, BitVec.toNat_ofNat]
  omega

theorem frameIdx_unfold (K : S313x2048x1.Idx) : ∃ J : S313x2048.Idx, (J 0).val = (K 0).val ∧ (J 1).val = (K 1).val ∧
    RefIdx.frameIdx K = Scalar.select (IntOp.cmpi .slt (RefIdx.frameBase J) 0#32)
      (IntOp.addi (RefIdx.frameBase J) 162048#32) (RefIdx.frameBase J) :=
  ⟨_, rfl, rfl, rfl⟩

theorem frameIdx_apply (t : Fin 313) (n : Fin 2048) :
    RefIdx.frameIdx (ix3 t n 0) = BitVec.ofNat 32 (512 * t.val + n.val) := by
  obtain ⟨J, h0, h1, h⟩ := frameIdx_unfold (ix3 t n 0)
  have ht : t.val < 313 := t.isLt
  have hn : n.val < 2048 := n.isLt
  have hJ : RefIdx.frameBase J = BitVec.ofNat 32 (512 * t.val + n.val) := by
    rw [frameBase_apply, h0, h1]
  rw [h, hJ]
  have hlt : (BitVec.ofNat 32 (512 * t.val + n.val)).toNat < 2 ^ 31 := by
    rw [BitVec.toNat_ofNat]; omega
  have hc : ¬ IntOp.cmpi .slt (BitVec.ofNat 32 (512 * t.val + n.val)) 0#32 = 1#1 := by
    rw [StableHlo.Predicate.slt_iff_toNat hlt (by decide)]
    exact Nat.not_lt_zero _
  exact if_neg hc

theorem frameIdx_clamp (t : Fin 313) (n : Fin 2048) :
    min (RefIdx.frameIdx (ix3 t n 0)).toInt.toNat 162047 = 512 * t.val + n.val := by
  have ht : t.val < 313 := t.isLt
  have hn : n.val < 2048 := n.isLt
  rw [frameIdx_apply, StableHlo.Predicate.toInt_ofNat_small _ (by omega), Int.toNat_natCast]
  exact Nat.min_eq_left (by omega)

/-! ## The assembly -/

theorem ref_eq (P : FVec Ideal S32x2x162048 .f32) (W : FVec Ideal S1025x2048 .f32) :
    Host.dotGeneral (F := Ideal) dot_S32x2x313x2048_S1025x2048_S32x2x313x1025_3_1_012_0_n_n none
        (Host.gather gather_S32x2x162048_S313x2048x1_S32x2x313x2048_01_2_n_n_2_2_3221 P RefIdx.frameIdx) W
      = Cert.Stft.stft P W := by
  funext i
  obtain ⟨b, c, t, k, rfl⟩ : ∃ (b : Fin 32) (c : Fin 2) (t : Fin 313) (k : Fin 1025), i = ix4 b c t k :=
    ⟨i 0, i 1, i 2, i 3, eq_ix4 i⟩
  rw [Cert.Stft.stft_apply, dot_apply]
  unfold Cert.Stft.coeff
  refine Finset.sum_congr rfl fun n _ => ?_
  rw [gather_apply]
  have e : (⟨min (RefIdx.frameIdx (ix3 t n 0)).toInt.toNat 162047, by omega⟩ : Fin 162048) = Cert.Stft.frameIx t n :=
    Fin.ext (frameIdx_clamp t n)
  rw [e]

end Cert.ReferenceIdeal.RefValue

end
-- ==== Proof.lean ====
/-
  The certificate: a 2048-point windowed discrete Fourier transform of every frame (hop 512) of a reflect-padded
  signal, computed by a kernel that never builds the overlapping frames — it reads the padded signal as
  non-overlapping chunks of one hop and accumulates, for each of the four hops of a frame, the product of the chunk
  that holds it with the matching 512 rows of the transposed weights — against the reference that gathers the frames
  and contracts them with the weights.

  Over the extended reals both programs end with `Cert.Stft.stft P W`, `P` the reflect-padded signal (the same four
  layout operations in both programs, carried as one function) and `W` a weight matrix: the reference by reading its
  gather and contraction at an index, the kernel because a frame's 2048 samples are its four hops in order, so the
  sum over samples is the sum over hops of the sums over a hop; addition of extended reals is commutative and
  associative also at the infinities, so the precondition is not used. The kernel's zero padding of the chunk array
  and of the weight columns only reaches frames and columns the program cuts off at the end.

  The frames of the two kernel programs are the generated ones; the reference's frame is its run with the results
  dropped; the idealization rewrote nothing, so `preserves` asks nothing.
-/
import proofs.«115000_j21380347199929_1_alg».proof.Defs
import proofs.«115000_j21380347199929_1_alg».proof.Proof.Gen.Kernel
import proofs.«115000_j21380347199929_1_alg».proof.Proof.Gen.Kernel.Skeleton
import proofs.«115000_j21380347199929_1_alg».proof.Proof.Gen.Kernel.Launch
import proofs.«115000_j21380347199929_1_alg».proof.Proof.Gen.Kernel.Points
import proofs.«115000_j21380347199929_1_alg».proof.Proof.Gen.Kernel.Frame
import proofs.«115000_j21380347199929_1_alg».proof.Proof.Gen.KernelIdeal
import proofs.«115000_j21380347199929_1_alg».proof.Proof.Gen.KernelIdeal.Skeleton
import proofs.«115000_j21380347199929_1_alg».proof.Proof.Gen.KernelIdeal.Launch
import proofs.«115000_j21380347199929_1_alg».proof.Proof.Gen.KernelIdeal.Points
import proofs.«115000_j21380347199929_1_alg».proof.Proof.Gen.KernelIdeal.Frame
import proofs.«115000_j21380347199929_1_alg».proof.Proof.Gen.ReferenceIdeal
import proofs.«115000_j21380347199929_1_alg».proof.Proof.Gen.Pre_finite_inputs
import proofs.«115000_j21380347199929_1_alg».proof.Proof.Spec
import proofs.«115000_j21380347199929_1_alg».proof.Proof.KValue
import proofs.«115000_j21380347199929_1_alg».proof.Proof.RefRun
import proofs.«115000_j21380347199929_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- Both programs end with the transform of the padded first argument against each weight argument. -/
theorem algebraic : Cert.algebraic_KernelIdeal_ReferenceIdeal := by
  intro m ρ m' ρ' _ hagree
  refine ⟨fun c => Cert.Stft.stft (Cert.KernelIdeal.HostPrefix.padded m c) (m ((c.tc : Thread Cert.KernelIdeal.nD Cert.KernelIdeal.τ).loc Cert.KernelIdeal.main_arg1)),
    fun c => Cert.Stft.stft (Cert.KernelIdeal.HostPrefix.padded m c) (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, ?_, (h c).2.2⟩)
    (Cert.ReferenceIdeal.RefRun.run (F := Ideal) m' ρ')
  · rw [(h c).1, Cert.ReferenceIdeal.RefValue.ref_eq, (hagree c).1, (hagree c).2.1]
  · rw [(h c).2.1, Cert.ReferenceIdeal.RefValue.ref_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
